-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 10000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg1 : IVec S2x640000 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S10112x10112 : Shape := ⟨2, ![10112, 10112]⟩
abbrev S640000x2 : Shape := ⟨2, ![640000, 2]⟩
abbrev S10000x1 : Shape := ⟨2, ![10000, 1]⟩
abbrev S10000x2 : Shape := ⟨2, ![10000, 2]⟩
abbrev S10112x128 : Shape := ⟨2, ![10112, 128]⟩
abbrev S2528x128 : Shape := ⟨2, ![2528, 128]⟩
abbrev S1x128 : Shape := ⟨2, ![1, 128]⟩
abbrev S632x10112 : Shape := ⟨2, ![632, 10112]⟩
abbrev S632x128 : Shape := ⟨2, ![632, 128]⟩
abbrev S64x128 : Shape := ⟨2, ![64, 128]⟩
abbrev S64 : Shape := ⟨1, ![64]⟩
abbrev S64x1 : Shape := ⟨2, ![64, 1]⟩

abbrev nBuf : Space → Nat
  | .hbm => 112
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S640000, .f32⟩
  | .hbm, ⟨15, _⟩ => ⟨S_, .f32⟩
  | .hbm, ⟨16, _⟩ => ⟨S10000, .f32⟩
  | .hbm, ⟨17, _⟩ => ⟨S640000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000, .f32⟩
  | .hbm, ⟨41, _⟩ => ⟨S640000, .f32⟩
  | .hbm, ⟨42, _⟩ => ⟨S_, .f32⟩
  | .hbm, ⟨43, _⟩ => ⟨S10112x10112, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x1, .i32⟩
  | .hbm, ⟨60, _⟩ => ⟨S640000x2, .i32⟩
  | .hbm, ⟨61, _⟩ => ⟨S10112x10112, .f32⟩
  | .hbm, ⟨62, _⟩ => ⟨S10000, .i32⟩
  | .hbm, ⟨63, _⟩ => ⟨S10000, .f32⟩
  | .hbm, ⟨64, _⟩ => ⟨S_, .i32⟩
  | .hbm, ⟨65, _⟩ => ⟨S10000, .i32⟩
  | .hbm, ⟨66, _⟩ => ⟨S10000, .i1⟩
  | .hbm, ⟨67, _⟩ => ⟨S_, .i32⟩
  | .hbm, ⟨68, _⟩ => ⟨S10000, .i32⟩
  | .hbm, ⟨69, _⟩ => ⟨S10000, .i32⟩
  | .hbm, ⟨70, _⟩ => ⟨S10000, .i32⟩
  | .hbm, ⟨71, _⟩ => ⟨S_, .i32⟩
  | .hbm, ⟨72, _⟩ => ⟨S10000, .i32⟩
  | .hbm, ⟨73, _⟩ => ⟨S10000, .i1⟩
  | .hbm, ⟨74, _⟩ => ⟨S_, .i32⟩
  | .hbm, ⟨75, _⟩ => ⟨S10000, .i32⟩
  | .hbm, ⟨76, _⟩ => ⟨S10000, .i32⟩
  | .hbm, ⟨77, _⟩ => ⟨S10000, .i32⟩
  | .hbm, ⟨78, _⟩ => ⟨S10000x1, .i32⟩
  | .hbm, ⟨79, _⟩ => ⟨S10000x1, .i32⟩
  | .hbm, ⟨80, _⟩ => ⟨S10000x2, .i32⟩
  | .hbm, ⟨81, _⟩ => ⟨S10112x10112, .f32⟩
  | .hbm, ⟨82, _⟩ => ⟨S10112x10112, .bf16⟩
  | .hbm, ⟨83, _⟩ => ⟨S_, .i32⟩
  | .hbm, ⟨84, _⟩ => ⟨S_, .f32⟩
  | .hbm, ⟨85, _⟩ => ⟨S10112x128, .f32⟩
  | .hbm, ⟨86, _⟩ => ⟨S10112x128, .bf16⟩
  | .hbm, ⟨87, _⟩ => ⟨S1x128, .f32⟩
  | .hbm, ⟨88, _⟩ => ⟨S10112x128, .f32⟩
  | .hbm, ⟨89, _⟩ => ⟨S10112x128, .bf16⟩
  | .hbm, ⟨90, _⟩ => ⟨S1x128, .f32⟩
  | .hbm, ⟨91, _⟩ => ⟨S10112x128, .f32⟩
  | .hbm, ⟨92, _⟩ => ⟨S10112x128, .bf16⟩
  | .hbm, ⟨93, _⟩ => ⟨S1x128, .f32⟩
  | .hbm, ⟨94, _⟩ => ⟨S10112x128, .f32⟩
  | .hbm, ⟨95, _⟩ => ⟨S10000x128, .f32⟩
  | .hbm, ⟨96, _⟩ => ⟨S_, .f32⟩
  | .hbm, ⟨97, _⟩ => ⟨S64x128, .f32⟩
  | .hbm, ⟨98, _⟩ => ⟨S10000x1, .i32⟩
  | .hbm, ⟨99, _⟩ => ⟨S64x128, .f32⟩
  | .hbm, ⟨100, _⟩ => ⟨S_, .f32⟩
  | .hbm, ⟨101, _⟩ => ⟨S10000, .f32⟩
  | .hbm, ⟨102, _⟩ => ⟨S_, .f32⟩
  | .hbm, ⟨103, _⟩ => ⟨S64, .f32⟩
  | .hbm, ⟨104, _⟩ => ⟨S10000x1, .i32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64x1, .f32⟩
  | .hbm, ⟨110, _⟩ => ⟨S64x128, .f32⟩
  | .hbm, ⟨111, _⟩ => ⟨S64x128, .f32⟩
  | .local _ .vmem, ⟨0, _⟩ => ⟨S2528x128, .f32⟩
  | .local _ .vmem, ⟨1, _⟩ => ⟨S2528x128, .f32⟩
  | .local _ .vmem, ⟨2, _⟩ => ⟨S128x128, .f32⟩
  | .local _ .vmem, ⟨3, _⟩ => ⟨S2528x128, .bf16⟩
  | .local _ .vmem, ⟨4, _⟩ => ⟨S2528x128, .bf16⟩
  | .local _ .vmem, ⟨5, _⟩ => ⟨S632x10112, .bf16⟩
  | .local _ .vmem, ⟨6, _⟩ => ⟨S632x10112, .bf16⟩
  | .local _ .vmem, ⟨7, _⟩ => ⟨S10112x128, .bf16⟩
  | .local _ .vmem, ⟨8, _⟩ => ⟨S1x128, .f32⟩
  | .local _ .vmem, ⟨9, _⟩ => ⟨S632x128, .f32⟩
  | .local _ .vmem, ⟨10, _⟩ => ⟨S632x128, .f32⟩
  | .local _ .vmem, ⟨11, _⟩ => ⟨S2528x128, .f32⟩
  | .local _ .vmem, ⟨12, _⟩ => ⟨S2528x128, .f32⟩
  | .local _ .vmem, ⟨13, _⟩ => ⟨S128x128, .f32⟩
  | .local _ .vmem, ⟨14, _⟩ => ⟨S2528x128, .bf16⟩
  | .local _ .vmem, ⟨15, _⟩ => ⟨S2528x128, .bf16⟩
  | .local _ .vmem, ⟨16, _⟩ => ⟨S632x10112, .bf16⟩
  | .local _ .vmem, ⟨17, _⟩ => ⟨S632x10112, .bf16⟩
  | .local _ .vmem, ⟨18, _⟩ => ⟨S10112x128, .bf16⟩
  | .local _ .vmem, ⟨19, _⟩ => ⟨S1x128, .f32⟩
  | .local _ .vmem, ⟨20, _⟩ => ⟨S632x128, .f32⟩
  | .local _ .vmem, ⟨21, _⟩ => ⟨S632x128, .f32⟩
  | .local _ .vmem, ⟨22, _⟩ => ⟨S2528x128, .f32⟩
  | .local _ .vmem, ⟨23, _⟩ => ⟨S2528x128, .f32⟩
  | .local _ .vmem, ⟨24, _⟩ => ⟨S128x128, .f32⟩
  | .local _ .vmem, ⟨25, _⟩ => ⟨S2528x128, .bf16⟩
  | .local _ .vmem, ⟨26, _⟩ => ⟨S2528x128, .bf16⟩
  | .local _ .vmem, ⟨27, _⟩ => ⟨S632x10112, .bf16⟩
  | .local _ .vmem, ⟨28, _⟩ => ⟨S632x10112, .bf16⟩
  | .local _ .vmem, ⟨29, _⟩ => ⟨S10112x128, .bf16⟩
  | .local _ .vmem, ⟨30, _⟩ => ⟨S1x128, .f32⟩
  | .local _ .vmem, ⟨31, _⟩ => ⟨S632x128, .f32⟩
  | .local _ .vmem, ⟨32, _⟩ => ⟨S632x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_14 : Ref sig .tc := ⟨.hbm, 83, rfl⟩
abbrev main_call0_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_cst_17 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2528x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2528x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S632x10112 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S632x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2528x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2528x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S632x10112 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10112x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S632x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2528x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2528x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S632x10112 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10112x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S632x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S_S10112x10112 : S_.BroadcastsInDim S10112x10112 (![] : Fin 0 → Fin S10112x10112.rank)
  concatenates_S640000x1_S640000x1_S640000x2_d1 : Shape.Concatenates [S640000x1, S640000x1] S640000x2 1
  bcast_S10000_S10000x1_0 : S10000.BroadcastsInDim S10000x1 (![0] : Fin 1 → Fin S10000x1.rank)
  concatenates_S10000x1_S10000x1_S10000x2_d1 : Shape.Concatenates [S10000x1, S10000x1] S10000x2 1
  bitsLt_bf16_f32 : FTy.bits .bf16 < FTy.bits .f32
  pads_S10000x128_S10112x128_01120_000 : S10000x128.Pads (![0, 0] : Fin 2 → Nat) ![112, 0] ![0, 0] S10112x128
  h_S_ : 0 < S_.numel
  inb_S2528x128_S2528x128_0_0 : ∀ a, (![0, 0] : Fin 2 → Nat) a + S2528x128.size a ≤ S2528x128.size a
  h_S2528x128 : 0 < S2528x128.numel
  shapeCasts_S2528x128_S2528x128 : S2528x128.ShapeCasts S2528x128
  inb_S128x128_S128x128_0_0 : ∀ a, (![0, 0] : Fin 2 → Nat) a + S128x128.size a ≤ S128x128.size a
  h_S128x128 : 0 < S128x128.numel
  packedbf16_S2528x128_S2528x128_0_0 : (Rect.unit (s := S2528x128) ![0, 0] S2528x128.size inb_S2528x128_S2528x128_0_0).PackedRows (EltTy.packing .bf16)
  shapeCasts_S128_S1x128 : S128.ShapeCasts S1x128
  inb_S632x10112_S632x10112_0_0 : ∀ a, (![0, 0] : Fin 2 → Nat) a + S632x10112.size a ≤ S632x10112.size a
  h_S632x10112 : 0 < S632x10112.numel
  shapeCasts_S632x10112_S632x10112 : S632x10112.ShapeCasts S632x10112
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S632x128 : S1x128.Broadcasts S632x128
  inb_S632x128_S632x128_0_0 : ∀ a, (![0, 0] : Fin 2 → Nat) a + S632x128.size a ≤ S632x128.size a
  h_S632x128 : 0 < S632x128.numel
  slices_S10112x128_S10000x128_0_0 : S10112x128.Slices ![0, 0] S10000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10112x10112_S640000x2_S640000_n_01_01_1_wf : ScatterDims.WF S10112x10112 S640000x2 S640000 [] [0, 1] [0, 1] 1
  scatter_S10112x10112_S10000x2_S10000_n_01_01_1_wf : ScatterDims.WF S10112x10112 S10000x2 S10000 [] [0, 1] [0, 1] 1
  dot_S2528x128_S128x128_S2528x128_1_0_0_1_n_n_wf : DotDims.WF S2528x128 S128x128 S2528x128 [1] [0] [0] [1] [] []
  dot_S632x10112_S10112x128_S632x128_1_0_0_1_n_n_wf : DotDims.WF S632x10112 S10112x128 S632x128 [1] [0] [0] [1] [] []
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2528x128.size a ≤ S10112x128.size a
  hwx0_0 : ∀ i : grid0.Coords, EltTy.bits .f32 = 32 ∨ (Rect.block (s := S10112x128) S2528x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2528x128.size a ≤ S10112x128.size a
  hwx0_2 : ∀ i : grid0.Coords, EltTy.bits .bf16 = 32 ∨ (Rect.block (s := S10112x128) S2528x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S632x10112.size a ≤ S10112x10112.size a
  hwx1_0 : ∀ i : grid1.Coords, EltTy.bits .bf16 = 32 ∨ (Rect.block (s := S10112x10112) S632x10112.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x128.size a ≤ S10112x128.size a
  hwx1_1 : ∀ i : grid1.Coords, EltTy.bits .bf16 = 32 ∨ (Rect.block (s := S10112x128) S10112x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S632x128.size a ≤ S10112x128.size a
  hwx1_3 : ∀ i : grid1.Coords, EltTy.bits .f32 = 32 ∨ (Rect.block (s := S10112x128) S632x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2528x128.size a ≤ S10112x128.size a
  hwx2_0 : ∀ i : grid2.Coords, EltTy.bits .f32 = 32 ∨ (Rect.block (s := S10112x128) S2528x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2528x128.size a ≤ S10112x128.size a
  hwx2_2 : ∀ i : grid2.Coords, EltTy.bits .bf16 = 32 ∨ (Rect.block (s := S10112x128) S2528x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S632x10112.size a ≤ S10112x10112.size a
  hwx3_0 : ∀ i : grid3.Coords, EltTy.bits .bf16 = 32 ∨ (Rect.block (s := S10112x10112) S632x10112.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10112x128.size a ≤ S10112x128.size a
  hwx3_1 : ∀ i : grid3.Coords, EltTy.bits .bf16 = 32 ∨ (Rect.block (s := S10112x128) S10112x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S632x128.size a ≤ S10112x128.size a
  hwx3_3 : ∀ i : grid3.Coords, EltTy.bits .f32 = 32 ∨ (Rect.block (s := S10112x128) S632x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2528x128.size a ≤ S10112x128.size a
  hwx4_0 : ∀ i : grid4.Coords, EltTy.bits .f32 = 32 ∨ (Rect.block (s := S10112x128) S2528x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2528x128.size a ≤ S10112x128.size a
  hwx4_2 : ∀ i : grid4.Coords, EltTy.bits .bf16 = 32 ∨ (Rect.block (s := S10112x128) S2528x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S632x10112.size a ≤ S10112x10112.size a
  hwx5_0 : ∀ i : grid5.Coords, EltTy.bits .bf16 = 32 ∨ (Rect.block (s := S10112x10112) S632x10112.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10112x128.size a ≤ S10112x128.size a
  hwx5_1 : ∀ i : grid5.Coords, EltTy.bits .bf16 = 32 ∨ (Rect.block (s := S10112x128) S10112x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S632x128.size a ≤ S10112x128.size a
  hwx5_3 : ∀ i : grid5.Coords, EltTy.bits .f32 = 32 ∨ (Rect.block (s := S10112x128) S632x128.size (cc5_transform_3 i) (hinb5_3 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10112x10112_S640000x2_S640000_n_01_01_1 : ScatterDims S10112x10112 S640000x2 S640000 where
  updateWindowDims := []
  insertedWindowDims := [0, 1]
  scatterDimsToOperandDims := [0, 1]
  indexVectorDim := 1
  wf := scatter_S10112x10112_S640000x2_S640000_n_01_01_1_wf
def scatter_S10112x10112_S10000x2_S10000_n_01_01_1 : ScatterDims S10112x10112 S10000x2 S10000 where
  updateWindowDims := []
  insertedWindowDims := [0, 1]
  scatterDimsToOperandDims := [0, 1]
  indexVectorDim := 1
  wf := scatter_S10112x10112_S10000x2_S10000_n_01_01_1_wf
def dot_S2528x128_S128x128_S2528x128_1_0_0_1_n_n : DotDims S2528x128 S128x128 S2528x128 where
  lhsContracting := [1]
  rhsContracting := [0]
  lhsNonContracting := [0]
  rhsNonContracting := [1]
  lhsBatch := []
  rhsBatch := []
  wf := dot_S2528x128_S128x128_S2528x128_1_0_0_1_n_n_wf
def dot_S632x10112_S10112x128_S632x128_1_0_0_1_n_n : DotDims S632x10112 S10112x128 S632x128 where
  lhsContracting := [1]
  rhsContracting := [0]
  lhsNonContracting := [0]
  rhsNonContracting := [1]
  lhsBatch := []
  rhsBatch := []
  wf := dot_S632x10112_S10112x128_S632x128_1_0_0_1_n_n_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf

abbrev win0_0 : Pipeline.Window sig grid0 :=
  Pipeline.Window.ofSpec (Memref.whole main_v58) S2528x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S2528x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S632x10112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S10112x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S632x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2528x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2528x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S632x10112.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S10112x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S632x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S2528x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S2528x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S632x10112.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S10112x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S632x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000x1 : Shape := ⟨2, ![10000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 197
  | .vmem => 0
  | .smem => 0
  | _ => 0

abbrev hbmTy0_0 (i : Nat) : BufTy := match i % 128 with
  | 0 => ⟨S10000x128, .f32⟩
  | 1 => ⟨S2x640000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S10000x128, .f32⟩
  | 14 => ⟨S_, .f32⟩
  | 15 => ⟨S640000, .f32⟩
  | 16 => ⟨S_, .f32⟩
  | 17 => ⟨S10000, .f32⟩
  | 18 => ⟨S640000x1, .i32⟩
  | 19 => ⟨S10000, .f32⟩
  | 20 => ⟨S_, .f32⟩
  | 21 => ⟨S10000, .f32⟩
  | 22 => ⟨S10000, .f32⟩
  | 23 => ⟨S10000, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000, .f32⟩
  | 51 => ⟨S640000, .f32⟩
  | 52 => ⟨S640000x1, .f32⟩
  | 53 => ⟨S640000x128, .f32⟩
  | 54 => ⟨S640000x128, .f32⟩
  | 55 => ⟨S_, .f32⟩
  | 56 => ⟨S10000x128, .f32⟩
  | 57 => ⟨S640000x1, .i32⟩
  | 58 => ⟨S10000x128, .f32⟩
  | 59 => ⟨S10000, .f32⟩
  | 60 => ⟨S10000x1, .f32⟩
  | 61 => ⟨S10000x128, .f32⟩
  | 62 => ⟨S10000x128, .f32⟩
  | 63 => ⟨S10000x128, .f32⟩
  | 64 => ⟨S1x128, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S10000x128, .f32⟩
  | 71 => ⟨S_, .f32⟩
  | 72 => ⟨S640000, .f32⟩
  | 73 => ⟨S_, .f32⟩
  | 74 => ⟨S10000, .f32⟩
  | 75 => ⟨S640000x1, .i32⟩
  | 76 => ⟨S10000, .f32⟩
  | 77 => ⟨S_, .f32⟩
  | 78 => ⟨S10000, .f32⟩
  | 79 => ⟨S10000, .f32⟩
  | 80 => ⟨S10000, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x128, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000, .f32⟩
  | 108 => ⟨S640000, .f32⟩
  | 109 => ⟨S640000x1, .f32⟩
  | 110 => ⟨S640000x128, .f32⟩
  | 111 => ⟨S640000x128, .f32⟩
  | 112 => ⟨S_, .f32⟩
  | 113 => ⟨S10000x128, .f32⟩
  | 114 => ⟨S640000x1, .i32⟩
  | 115 => ⟨S10000x128, .f32⟩
  | 116 => ⟨S10000, .f32⟩
  | 117 => ⟨S10000x1, .f32⟩
  | 118 => ⟨S10000x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S_, .f32⟩
  | 125 => ⟨S10000x128, .f32⟩
  | 126 => ⟨S10000x128, .f32⟩
  | 127 => ⟨S10000x128, .f32⟩
  | _ => ⟨S10000x128, .f32⟩

abbrev hbmTy0_1 (i : Nat) : BufTy := match i % 128 with
  | 0 => ⟨S_, .f32⟩
  | 1 => ⟨S640000, .f32⟩
  | 2 => ⟨S_, .f32⟩
  | 3 => ⟨S10000, .f32⟩
  | 4 => ⟨S640000x1, .i32⟩
  | 5 => ⟨S10000, .f32⟩
  | 6 => ⟨S_, .f32⟩
  | 7 => ⟨S10000, .f32⟩
  | 8 => ⟨S10000, .f32⟩
  | 9 => ⟨S10000, .f32⟩
  | 10 => ⟨S_, .i32⟩
  | 11 => ⟨S640000, .i32⟩
  | 12 => ⟨S640000, .i1⟩
  | 13 => ⟨S_, .i32⟩
  | 14 => ⟨S640000, .i32⟩
  | 15 => ⟨S640000, .i32⟩
  | 16 => ⟨S640000, .i32⟩
  | 17 => ⟨S640000x1, .i32⟩
  | 18 => ⟨S640000x128, .f32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000, .f32⟩
  | 37 => ⟨S640000, .f32⟩
  | 38 => ⟨S640000x1, .f32⟩
  | 39 => ⟨S640000x128, .f32⟩
  | 40 => ⟨S640000x128, .f32⟩
  | 41 => ⟨S_, .f32⟩
  | 42 => ⟨S10000x128, .f32⟩
  | 43 => ⟨S640000x1, .i32⟩
  | 44 => ⟨S10000x128, .f32⟩
  | 45 => ⟨S10000, .f32⟩
  | 46 => ⟨S10000x1, .f32⟩
  | 47 => ⟨S10000x128, .f32⟩
  | 48 => ⟨S10000x128, .f32⟩
  | 49 => ⟨S10000x128, .f32⟩
  | 50 => ⟨S1x128, .f32⟩
  | 51 => ⟨S10000x128, .f32⟩
  | 52 => ⟨S10000x128, .f32⟩
  | 53 => ⟨S_, .f32⟩
  | 54 => ⟨S64x128, .f32⟩
  | 55 => ⟨S10000x1, .i32⟩
  | 56 => ⟨S64x128, .f32⟩
  | 57 => ⟨S_, .f32⟩
  | 58 => ⟨S10000, .f32⟩
  | 59 => ⟨S_, .f32⟩
  | 60 => ⟨S64, .f32⟩
  | 61 => ⟨S10000x1, .i32⟩
  | 62 => ⟨S64, .f32⟩
  | 63 => ⟨S_, .f32⟩
  | 64 => ⟨S64, .f32⟩
  | 65 => ⟨S64, .f32⟩
  | 66 => ⟨S64x1, .f32⟩
  | 67 => ⟨S64x128, .f32⟩
  | 68 => ⟨S64x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_v94 : Ref sig .tc := ⟨.hbm, 127, rfl⟩
abbrev main_cst_18 : Ref sig .tc := ⟨.hbm, 128, rfl⟩
abbrev main_v95 : Ref sig .tc := ⟨.hbm, 129, rfl⟩
abbrev main_cst_19 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_21 : Ref sig .tc := ⟨.hbm, 138, rfl⟩
abbrev main_v102 : Ref sig .tc := ⟨.hbm, 139, rfl⟩
abbrev main_v103 : Ref sig .tc := ⟨.hbm, 140, rfl⟩
abbrev main_c_22 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_23 : Ref sig .tc := ⟨.hbm, 147, rfl⟩
abbrev main_v109 : Ref sig .tc := ⟨.hbm, 148, rfl⟩
abbrev main_v110 : Ref sig .tc := ⟨.hbm, 149, rfl⟩
abbrev main_c_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_25 : Ref sig .tc := ⟨.hbm, 156, rfl⟩
abbrev main_v116 : Ref sig .tc := ⟨.hbm, 157, rfl⟩
abbrev main_v117 : Ref sig .tc := ⟨.hbm, 158, rfl⟩
abbrev main_c_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_27 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_28 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_29 : Ref sig .tc := ⟨.hbm, 185, rfl⟩
abbrev main_v141 : Ref sig .tc := ⟨.hbm, 186, rfl⟩
abbrev main_cst_30 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_31 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S10000x128_S128x128_S10000x128_1_0_0_1_n_n_wf : DotDims.WF S10000x128 S128x128 S10000x128 [1] [0] [0] [1] [] []
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  gather_S10000_S640000x1_S640000_n_0_n_n_0_1_1_wf : GatherDims.WF S10000 S640000x1 S640000 [] [0] [] [0] [] 1 ![1]
  scatter_S10000x128_S640000x1_S640000x128_1_0_0_1_wf : ScatterDims.WF S10000x128 S640000x1 S640000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf

class Facts : Prop extends Facts₀ where

variable [Facts]
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
import Idealize.ShloMosaic.PureOps.Ideal
import proofs.«405046_j44195213476075_1_alg».proof.Proof.LibReal
import Mathlib.Algebra.BigOperators.Group.Finset.Basic
import Mathlib.Algebra.BigOperators.Ring.Finset

/-!
  A three-layer graph convolution, written two ways, as plain functions of extended reals.

  Nodes are `Fin 10000`, edges `Fin 640000` with endpoints `src e`, `dst e`, features `Fin 128`.
  An edge `e` carries a weight `w e`; a node `n` a self-loop weight `d2 n`.

  * Edge form: the aggregate at node `i` is the sum over the edges INTO `i` of the source's
    feature row times the edge weight, plus the node's own row times its self-loop weight.
  * Dense form: the weights are first summed into a matrix `A` over a padded index range
    `Fin 10112` (`A i j` = the weights of the edges from `j` into `i`, plus `d2 i` on the
    diagonal), and the aggregate is the matrix product `A · h`.

  The two agree on the first 10000 rows when every entry is a real number: the product
  distributes over the inner sum, and regrouping the edges into `i` by their source is a
  reindexing of one finite sum.  Columns `j ≥ 10000` of `A` are zero, so what the padded
  rows of `h` hold does not matter.
-/

open scoped BigOperators

namespace Cert.Gcn

open Cert.LibReal

/-- A node, as a row of the padded range. -/
abbrev pad (i : Fin 10000) : Fin 10112 := Fin.castLE (by decide) i

/-- The padding map is injective. -/
private theorem pad_injective : Function.Injective pad := fun a b hab => by
  have h := congrArg Fin.val hab
  exact Fin.ext (by simpa using h)

/-- A padded index outside the image of `pad` lies at or beyond 10000. -/
private theorem ge_of_not_mem_range_pad {j : Fin 10112} (hj : j ∉ Set.range pad) : 10000 ≤ j.val := by
  by_contra hlt
  exact hj ⟨⟨j.val, by omega⟩, Fin.ext rfl⟩

/-- The real identity behind the law: the product distributes over the inner sums; the edges into `i`
    regroup by their source; the diagonal term survives only at `j = i`. -/
private theorem real_core {N E : ℕ} (src dst : Fin E → Fin N) (wr : Fin E → ℝ) (dr : Fin N → ℝ)
    (hr : Fin N → ℝ) (i : Fin N) :
    ∑ j : Fin N,
        ((∑ e ∈ Finset.univ.filter (fun e : Fin E => (dst e).val = i.val ∧ (src e).val = j.val), wr e)
          + ∑ n ∈ Finset.univ.filter (fun n : Fin N => n.val = i.val ∧ n.val = j.val), dr n) * hr j
      = (∑ e ∈ Finset.univ.filter (fun e : Fin E => dst e = i), hr (src e) * wr e) + hr i * dr i := by
  simp only [add_mul, Finset.sum_add_distrib]
  congr 1
  · -- the edges into `i`, fibred over their source
    rw [← Finset.sum_fiberwise (Finset.univ.filter (fun e : Fin E => dst e = i)) src
      (fun e => hr (src e) * wr e)]
    refine Finset.sum_congr rfl fun j _ => ?_
    rw [Finset.sum_mul, Finset.filter_filter]
    refine Finset.sum_congr ?_ ?_
    · ext e
      simp only [Finset.mem_filter, Finset.mem_univ, true_and, Fin.val_inj]
    · intro e he
      have hs : src e = j := (Finset.mem_filter.mp he).2.2
      rw [hs, mul_comm]
  · -- the diagonal
    rw [Finset.sum_eq_single i]
    · have hf : Finset.univ.filter (fun n : Fin N => n.val = i.val ∧ n.val = i.val) = {i} := by
        ext n
        simp only [Finset.mem_filter, Finset.mem_univ, true_and, Finset.mem_singleton, and_self,
          Fin.val_inj]
      rw [hf, Finset.sum_singleton, mul_comm]
    · intro j _ hji
      have hf : Finset.univ.filter (fun n : Fin N => n.val = i.val ∧ n.val = j.val) = ∅ := by
        apply Finset.filter_eq_empty_iff.mpr
        intro n _ hn
        exact hji (Fin.ext (hn.2.symm.trans hn.1))
      rw [hf, Finset.sum_empty, zero_mul]
    · intro hi
      exact absurd (Finset.mem_univ i) hi

section
variable (src dst : Fin 640000 → Fin 10000)

/-- The dense weight matrix on the padded range: edge weights summed by (destination, source),
    plus the self-loop weights on the diagonal. -/
noncomputable def dense (w : Fin 640000 → EReal) (d2 : Fin 10000 → EReal) (i j : Fin 10112) : EReal :=
  (∑ e ∈ Finset.univ.filter (fun e : Fin 640000 => (dst e).val = i.val ∧ (src e).val = j.val), w e)
    + ∑ n ∈ Finset.univ.filter (fun n : Fin 10000 => n.val = i.val ∧ n.val = j.val), d2 n

/-- Aggregation through the dense matrix, plus a bias. -/
noncomputable def aggDense (A : Fin 10112 → Fin 10112 → EReal) (h : Fin 10112 → Fin 128 → EReal) (b : Fin 128 → EReal)
    (i : Fin 10112) (k : Fin 128) : EReal :=
  (∑ j, A i j * h j k) + b k

/-- Aggregation edge by edge, plus the self loop, plus a bias. -/
noncomputable def aggEdges (w : Fin 640000 → EReal) (d2 : Fin 10000 → EReal) (h : Fin 10000 → Fin 128 → EReal)
    (b : Fin 128 → EReal) (i : Fin 10000) (k : Fin 128) : EReal :=
  (∑ e ∈ Finset.univ.filter (fun e : Fin 640000 => dst e = i), h (src e) k * w e) + h i k * d2 i + b k

end

/-- A feature matrix times a weight matrix. -/
noncomputable def lin {n : ℕ} (X : Fin n → Fin 128 → EReal) (W : Fin 128 → Fin 128 → EReal) (i : Fin n) (k : Fin 128) : EReal :=
  ∑ c, X i c * W c k

/-- The positive part. -/
noncomputable def relu (x : EReal) : EReal := max x 0

theorem relu_isReal {x : EReal} (hx : IsReal x) : IsReal (relu x) := IsReal.max hx IsReal.zero

theorem lin_isReal {n : ℕ} {X : Fin n → Fin 128 → EReal} {W : Fin 128 → Fin 128 → EReal}
    (hX : ∀ i c, IsReal (X i c)) (hW : ∀ c k, IsReal (W c k)) (i : Fin n) (k : Fin 128) : IsReal (lin X W i k) :=
  IsReal.sum _ _ fun c _ => IsReal.mul (hX i c) (hW c k)

/-- The linear map acts row by row: padded rows agree with the original ones where the inputs do. -/
theorem lin_pad {Xp : Fin 10112 → Fin 128 → EReal} {X : Fin 10000 → Fin 128 → EReal}
    (h : ∀ i c, Xp (pad i) c = X i c) (W : Fin 128 → Fin 128 → EReal) (i : Fin 10000) (k : Fin 128) :
    lin Xp W (pad i) k = lin X W i k := by
  unfold lin; exact Finset.sum_congr rfl fun c _ => by rw [h]

section
variable (src dst : Fin 640000 → Fin 10000)

theorem aggEdges_isReal {w : Fin 640000 → EReal} {d2 : Fin 10000 → EReal} {h : Fin 10000 → Fin 128 → EReal}
    {b : Fin 128 → EReal} (hw : ∀ e, IsReal (w e)) (hd : ∀ n, IsReal (d2 n)) (hh : ∀ i k, IsReal (h i k))
    (hb : ∀ k, IsReal (b k)) (i : Fin 10000) (k : Fin 128) : IsReal (aggEdges src dst w d2 h b i k) :=
  IsReal.add (IsReal.add (IsReal.sum _ _ fun e _ => IsReal.mul (hh _ _) (hw e)) (IsReal.mul (hh i k) (hd i))) (hb k)

/-- Columns at or beyond 10000 of the dense matrix vanish: no edge has its source there, and no node
    sits there. -/
private theorem dense_col_zero (w : Fin 640000 → EReal) (d2 : Fin 10000 → EReal) (i j : Fin 10112)
    (hj : 10000 ≤ j.val) : dense src dst w d2 i j = 0 := by
  have h1 : Finset.univ.filter
      (fun e : Fin 640000 => (dst e).val = i.val ∧ (src e).val = j.val) = ∅ := by
    apply Finset.filter_eq_empty_iff.mpr
    intro e _ he
    have hlt := (src e).isLt
    omega
  have h2 : Finset.univ.filter (fun n : Fin 10000 => n.val = i.val ∧ n.val = j.val) = ∅ := by
    apply Finset.filter_eq_empty_iff.mpr
    intro n _ hn
    have hlt := n.isLt
    omega
  unfold dense
  rw [h1, h2, Finset.sum_empty, Finset.sum_empty, add_zero]

/-- On real entries the padded row of the dense matrix against the feature column is the coercion of
    the real double sum. -/
private theorem dense_row_real (wr : Fin 640000 → ℝ) (dr : Fin 10000 → ℝ) (hr : Fin 10000 → ℝ)
    (i : Fin 10000) :
    ∑ j : Fin 10000, dense src dst (fun e => (wr e : EReal)) (fun n => (dr n : EReal)) (pad i) (pad j)
        * (hr j : EReal)
      = (((∑ e ∈ Finset.univ.filter (fun e : Fin 640000 => dst e = i), hr (src e) * wr e)
          + hr i * dr i : ℝ) : EReal) := by
  rw [← real_core src dst wr dr hr i]
  unfold dense
  simp only [Fin.val_castLE, ← coe_sum, ← EReal.coe_add, ← EReal.coe_mul]

/-- THE LAW: on a node's row the dense aggregate is the edge aggregate, for real entries. -/
theorem aggDense_eq_aggEdges {w : Fin 640000 → EReal} {d2 : Fin 10000 → EReal}
    {hp : Fin 10112 → Fin 128 → EReal} {h : Fin 10000 → Fin 128 → EReal} {b : Fin 128 → EReal}
    (hw : ∀ e, IsReal (w e)) (hd : ∀ n, IsReal (d2 n)) (hh : ∀ i k, IsReal (h i k))
    (hpad : ∀ i k, hp (pad i) k = h i k) (i : Fin 10000) (k : Fin 128) :
    aggDense (dense src dst w d2) hp b (pad i) k = aggEdges src dst w d2 h b i k := by
  choose wr hwr using hw
  choose dr hdr using hd
  choose hr hhr using hh
  obtain rfl : w = fun e => (wr e : EReal) := funext hwr
  obtain rfl : d2 = fun n => (dr n : EReal) := funext hdr
  unfold aggDense aggEdges
  refine congrArg (· + b k) ?_
  -- only the columns in the image of `pad` contribute
  rw [← Fintype.sum_of_injective pad pad_injective
    (fun j => dense src dst (fun e => (wr e : EReal)) (fun n => (dr n : EReal)) (pad i) (pad j)
      * ((hr j k : ℝ) : EReal))
    (fun j => dense src dst (fun e => (wr e : EReal)) (fun n => (dr n : EReal)) (pad i) j * hp j k)
    (fun j hj => by
      rw [dense_col_zero src dst _ _ _ _ (ge_of_not_mem_range_pad hj), zero_mul])
    (fun j => by rw [hpad, hhr])]
  rw [dense_row_real src dst wr dr (fun j => hr j k) i]
  simp only [hhr, EReal.coe_add, EReal.coe_mul, coe_sum]

/-- Three layers through the dense matrix (positive part after the first two). -/
noncomputable def netDense (A : Fin 10112 → Fin 10112 → EReal) (X : Fin 10112 → Fin 128 → EReal)
    (W0 W1 W2 : Fin 128 → Fin 128 → EReal) (b0 b1 b2 : Fin 128 → EReal) : Fin 10112 → Fin 128 → EReal :=
  let X1 : Fin 10112 → Fin 128 → EReal := fun i k => relu (aggDense A (lin X W0) b0 i k)
  let X2 : Fin 10112 → Fin 128 → EReal := fun i k => relu (aggDense A (lin X1 W1) b1 i k)
  aggDense A (lin X2 W2) b2

/-- Three layers edge by edge. -/
noncomputable def netEdges (w : Fin 640000 → EReal) (d2 : Fin 10000 → EReal) (X : Fin 10000 → Fin 128 → EReal)
    (W0 W1 W2 : Fin 128 → Fin 128 → EReal) (b0 b1 b2 : Fin 128 → EReal) : Fin 10000 → Fin 128 → EReal :=
  let X1 : Fin 10000 → Fin 128 → EReal := fun i k => relu (aggEdges src dst w d2 (lin X W0) b0 i k)
  let X2 : Fin 10000 → Fin 128 → EReal := fun i k => relu (aggEdges src dst w d2 (lin X1 W1) b1 i k)
  aggEdges src dst w d2 (lin X2 W2) b2

/-- The two networks agree on the nodes' rows. -/
theorem netDense_eq_netEdges {w : Fin 640000 → EReal} {d2 : Fin 10000 → EReal}
    {Xp : Fin 10112 → Fin 128 → EReal} {X : Fin 10000 → Fin 128 → EReal}
    {W0 W1 W2 : Fin 128 → Fin 128 → EReal} {b0 b1 b2 : Fin 128 → EReal}
    (hw : ∀ e, IsReal (w e)) (hd : ∀ n, IsReal (d2 n)) (hX : ∀ i k, IsReal (X i k))
    (hW0 : ∀ c k, IsReal (W0 c k)) (hW1 : ∀ c k, IsReal (W1 c k)) (hW2 : ∀ c k, IsReal (W2 c k))
    (hb0 : ∀ k, IsReal (b0 k)) (hb1 : ∀ k, IsReal (b1 k))
    (hpad : ∀ i k, Xp (pad i) k = X i k) (i : Fin 10000) (k : Fin 128) :
    netDense (dense src dst w d2) Xp W0 W1 W2 b0 b1 b2 (pad i) k = netEdges src dst w d2 X W0 W1 W2 b0 b1 b2 i k := by
  -- first layer
  have hL0 : ∀ i k, IsReal (lin X W0 i k) := lin_isReal hX hW0
  have hP0 : ∀ i k, lin Xp W0 (pad i) k = lin X W0 i k := lin_pad hpad W0
  have hR1 : ∀ i k, IsReal (relu (aggEdges src dst w d2 (lin X W0) b0 i k)) := fun i k =>
    relu_isReal (aggEdges_isReal src dst hw hd hL0 hb0 i k)
  have hE1 : ∀ i k, relu (aggDense (dense src dst w d2) (lin Xp W0) b0 (pad i) k)
      = relu (aggEdges src dst w d2 (lin X W0) b0 i k) := fun i k =>
    congrArg relu (aggDense_eq_aggEdges src dst hw hd hL0 hP0 i k)
  -- second layer
  have hL1 : ∀ i k, IsReal
      (lin (fun i k => relu (aggEdges src dst w d2 (lin X W0) b0 i k)) W1 i k) :=
    lin_isReal hR1 hW1
  have hP1 : ∀ i k,
      lin (fun i k => relu (aggDense (dense src dst w d2) (lin Xp W0) b0 i k)) W1 (pad i) k
        = lin (fun i k => relu (aggEdges src dst w d2 (lin X W0) b0 i k)) W1 i k :=
    lin_pad (Xp := fun i k => relu (aggDense (dense src dst w d2) (lin Xp W0) b0 i k))
      (X := fun i k => relu (aggEdges src dst w d2 (lin X W0) b0 i k)) hE1 W1
  have hR2 : ∀ i k, IsReal (relu (aggEdges src dst w d2
      (lin (fun i k => relu (aggEdges src dst w d2 (lin X W0) b0 i k)) W1) b1 i k)) := fun i k =>
    relu_isReal (aggEdges_isReal src dst hw hd hL1 hb1 i k)
  have hE2 : ∀ i k,
      relu (aggDense (dense src dst w d2)
          (lin (fun i k => relu (aggDense (dense src dst w d2) (lin Xp W0) b0 i k)) W1) b1 (pad i) k)
        = relu (aggEdges src dst w d2
          (lin (fun i k => relu (aggEdges src dst w d2 (lin X W0) b0 i k)) W1) b1 i k) := fun i k =>
    congrArg relu (aggDense_eq_aggEdges src dst hw hd hL1 hP1 i k)
  -- third layer: the last bias is added to both sides as it is
  have hL2 : ∀ i k, IsReal (lin (fun i k => relu (aggEdges src dst w d2
      (lin (fun i k => relu (aggEdges src dst w d2 (lin X W0) b0 i k)) W1) b1 i k)) W2 i k) :=
    lin_isReal hR2 hW2
  have hP2 : ∀ i k,
      lin (fun i k => relu (aggDense (dense src dst w d2)
          (lin (fun i k => relu (aggDense (dense src dst w d2) (lin Xp W0) b0 i k)) W1) b1 i k)) W2
          (pad i) k
        = lin (fun i k => relu (aggEdges src dst w d2
          (lin (fun i k => relu (aggEdges src dst w d2 (lin X W0) b0 i k)) W1) b1 i k)) W2 i k :=
    lin_pad
      (Xp := fun i k => relu (aggDense (dense src dst w d2)
          (lin (fun i k => relu (aggDense (dense src dst w d2) (lin Xp W0) b0 i k)) W1) b1 i k))
      (X := fun i k => relu (aggEdges src dst w d2
          (lin (fun i k => relu (aggEdges src dst w d2 (lin X W0) b0 i k)) W1) b1 i k)) hE2 W2
  exact aggDense_eq_aggEdges src dst hw hd hL2 hP2 i k

end

end Cert.Gcn
-- ==== Proof.KLin0.lean ====
import proofs.«405046_j44195213476075_1_alg».proof.Proof.Gen.KernelIdeal.Frame
import proofs.«405046_j44195213476075_1_alg».proof.Proof.Spec
import Idealize.ShloMosaic.Lib.Pipeline.Value
import Idealize.ShloMosaic.Lib.ValueIdx
import Idealize.ShloMosaic.PureOps.Ideal.Laws

/-!
  Region 0: the dense projection `x · W`, tiled over four row blocks of 2528 rows.
  Whatever the entry contents `V` are, after the region the output array holds, at row `i` and column `k`, the sum
  over `c` of `x i c · W c k` of the two input arrays as entered: each grid point writes the rows of its own block, a
  row's products read that row of `x` and all of `W`, and the four blocks tile the 10112 rows.  At the exact
  instance the changes of float format in the body are the identity and the matrix unit's pass into a zero
  accumulator is the plain sum.
-/

set_option maxRecDepth 16384

noncomputable section

namespace Cert.KernelIdeal.KLin0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The matrix unit's operand indices

  The product contracts axis 1 of the left operand with axis 0 of the right one: at output index `(r, k)` and
  contraction coordinate `q` the left operand is read at `(r, q)` and the right one at `(q, k)`. -/

private theorem lhs_axis0 (i : S2528x128.Idx) (q : dot_S2528x128_S128x128_S2528x128_1_0_0_1_n_n.contr.Idx) :
    (dot_S2528x128_S128x128_S2528x128_1_0_0_1_n_n.lhsIdx i q 0).val = (i 0).val := by
  unfold DotDims.lhsIdx
  rw [dif_neg (show ¬(0 : Fin S2528x128.rank) ∈ dot_S2528x128_S128x128_S2528x128_1_0_0_1_n_n.lhsBatch by decide),
    dif_pos (show (0 : Fin S2528x128.rank) ∈ dot_S2528x128_S128x128_S2528x128_1_0_0_1_n_n.lhsNonContracting by decide)]
  rfl

private theorem lhs_axis1 (i : S2528x128.Idx) (q : dot_S2528x128_S128x128_S2528x128_1_0_0_1_n_n.contr.Idx) :
    (dot_S2528x128_S128x128_S2528x128_1_0_0_1_n_n.lhsIdx i q 1).val = (q ⟨0, by decide⟩).val :=
  dot_S2528x128_S128x128_S2528x128_1_0_0_1_n_n.lhsIdx_val_of_single rfl i q

private theorem rhs_axis0 (i : S2528x128.Idx) (q : dot_S2528x128_S128x128_S2528x128_1_0_0_1_n_n.contr.Idx) :
    (dot_S2528x128_S128x128_S2528x128_1_0_0_1_n_n.rhsIdx i q 0).val = (q ⟨0, by decide⟩).val :=
  dot_S2528x128_S128x128_S2528x128_1_0_0_1_n_n.rhsIdx_val_of_single rfl i q

private theorem rhs_axis1 (i : S2528x128.Idx) (q : dot_S2528x128_S128x128_S2528x128_1_0_0_1_n_n.contr.Idx) :
    (dot_S2528x128_S128x128_S2528x128_1_0_0_1_n_n.rhsIdx i q 1).val = (i 1).val := by
  unfold DotDims.rhsIdx
  rw [dif_neg (show ¬(1 : Fin S128x128.rank) ∈ dot_S2528x128_S128x128_S2528x128_1_0_0_1_n_n.rhsBatch by decide),
    dif_pos (show (1 : Fin S128x128.rank) ∈ dot_S2528x128_S128x128_S2528x128_1_0_0_1_n_n.rhsNonContracting by decide)]
  rfl

/-! ## The body's result at an index -/

/-- One block's result at row `r`, column `k`: the sum over `cc` of the row block at `(r, cc)` times the weights at
    `(cc, k)`.  The two narrowings of the operands and the narrowing of the result are the identity on exact
    values, the cast to the same shape is the identity, and the accumulator starts at zero. -/
theorem pay_apply (x0 : Vec Ideal S2528x128 .f32) (x1 : Vec Ideal S128x128 .f32) (r : Fin 2528) (k : Fin 128) :
    (k0_pay1 (F := Ideal) x0 x1 : S2528x128.Idx → EReal) (ix2 r k) = ∑ cc : Fin 128, x0 (ix2 r cc) * x1 (ix2 cc k) := by
  unfold k0_pay1
  simp only [shapeCast_self]
  refine (Ideal.matmul_constant_zero_apply dot_S2528x128_S128x128_S2528x128_1_0_0_1_n_n none _ _ (ix2 r k)).trans ?_
  rw [← Equiv.sum_comp (contrEquiv1 dot_S2528x128_S128x128_S2528x128_1_0_0_1_n_n 128 rfl rfl).symm]
  refine Finset.sum_congr rfl fun cc _ => ?_
  have hk := contrEquiv1_symm_val dot_S2528x128_S128x128_S2528x128_1_0_0_1_n_n 128 rfl rfl cc
  have el : dot_S2528x128_S128x128_S2528x128_1_0_0_1_n_n.lhsIdx (ix2 r k) ((contrEquiv1 dot_S2528x128_S128x128_S2528x128_1_0_0_1_n_n 128 rfl rfl).symm cc) = ix2 r cc :=
    funext fun a => Fin.ext (by
      match a with
      | ⟨0, _⟩ => exact lhs_axis0 _ _
      | ⟨1, _⟩ => exact (lhs_axis1 _ _).trans hk)
  have er : dot_S2528x128_S128x128_S2528x128_1_0_0_1_n_n.rhsIdx (ix2 r k) ((contrEquiv1 dot_S2528x128_S128x128_S2528x128_1_0_0_1_n_n 128 rfl rfl).symm cc) = ix2 cc k :=
    funext fun a => Fin.ext (by
      match a with
      | ⟨0, _⟩ => exact (rhs_axis0 _ _).trans hk
      | ⟨1, _⟩ => exact rhs_axis1 _ _)
  rw [el, er]
  rfl

/-! ## One block from the two arrays -/

/-- If `x0` is the block of rows `b · 2528 …` of an array `X` and `x1` is all of `W`, the block's result at the block
    index `z` is the product `X · W` at the array index `j` that sits `b · 2528` rows further down. -/
theorem pay_block (x0 : Vec Ideal S2528x128 .f32) (x1 : Vec Ideal S128x128 .f32)
    (X : S10112x128.Idx → EReal) (W : S128x128.Idx → EReal) (b : Nat)
    (hx : ∀ (r : Fin 2528) (cc : Fin 128) (i : Fin 10112), i.val = b * 2528 + r.val → x0 (ix2 r cc) = X (ix2 i cc))
    (hw : ∀ cc k : Fin 128, x1 (ix2 cc k) = W (ix2 cc k))
    (z : S2528x128.Idx) (j : S10112x128.Idx) (h0 : (j 0).val = b * 2528 + (z 0).val) (h1 : (j 1).val = (z 1).val) :
    (k0_pay1 (F := Ideal) x0 x1 : S2528x128.Idx → EReal) z
      = Cert.Gcn.lin (fun i k => X (ix2 i k)) (fun i k => W (ix2 i k)) (j 0) (j 1) := by
  obtain ⟨r, k, rfl⟩ : ∃ (r : Fin 2528) (k : Fin 128), z = ix2 r k := ⟨z 0, z 1, eq_ix2 z⟩
  obtain ⟨i, k', rfl⟩ : ∃ (i : Fin 10112) (k' : Fin 128), j = ix2 i k' := ⟨j 0, j 1, eq_ix2 j⟩
  obtain rfl : k' = k := Fin.ext h1
  rw [pay_apply]
  show _ = ∑ cc : Fin 128, X (ix2 i cc) * W (ix2 cc k')
  exact Finset.sum_congr rfl fun cc _ => by rw [hx r cc i h0, hw cc k']

variable (V : (c : Dev nD) → (b : Ref sig .tc) → Buf (Elt Ideal) ((c : Thread nD τ).loc b))

/-- The region's first input array as entered (the features, 10112 rows). -/
abbrev xin (c : Dev nD) : S10112x128.Idx → EReal := V c main_v58
/-- The region's second input array as entered (the weights). -/
abbrev win (c : Dev nD) : S128x128.Idx → EReal := V c main_arg3

/-! ## Where the windows sit at a grid point -/

theorem hz : (![0, 0] : Fin 2 → Nat) = fun _ => 0 := funext fun a => by fin_cases a <;> rfl

/-- At grid point `t` the output window and the row-tiled input window are at block `t` of the rows and block 0 of
    the columns; the weights' window is at block 0 on both axes (decided over the four points). -/
theorem idx_facts : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The row-tiled input block at point `t` is rows `2528 t …` of the first input array. -/
theorem xblk_apply (c : Dev nD) (t : Fin cfg0.N) (r : Fin 2528) (cc : Fin 128) (i : Fin 10112)
    (hi : i.val = t.val * 2528 + r.val) :
    (iblk0 (F := Ideal) V c 0 t : S2528x128.Idx → EReal) (ix2 r cc) = xin V c (ix2 i cc) := by
  obtain ⟨-, -, e0, e1, -, -⟩ := idx_facts t
  unfold iblk0
  rw [View.read_apply]
  show V c main_v58 _ = V c main_v58 _
  congr 1
  funext a
  apply Fin.ext
  match a with
  | ⟨0, _⟩ => show win0_0.index t (0 : Fin 2) * 2528 + 1 * r.val = i.val; rw [e0, hi]; omega
  | ⟨1, _⟩ => show win0_0.index t (1 : Fin 2) * 128 + 1 * cc.val = cc.val; rw [e1]; omega

/-- The weights' block at any point is the whole second input array. -/
theorem wblk_apply (c : Dev nD) (t : Fin cfg0.N) (cc k : Fin 128) :
    (iblk0 (F := Ideal) V c 1 t : S128x128.Idx → EReal) (ix2 cc k) = win V c (ix2 cc k) := by
  obtain ⟨-, -, -, -, e0, e1⟩ := idx_facts t
  unfold iblk0
  rw [View.read_apply]
  show V c main_arg3 _ = V c main_arg3 _
  congr 1
  funext a
  apply Fin.ext
  match a with
  | ⟨0, _⟩ => show win0_1.index t (0 : Fin 2) * 128 + 1 * cc.val = cc.val; rw [e0]; omega
  | ⟨1, _⟩ => show win0_1.index t (1 : Fin 2) * 128 + 1 * k.val = k.val; rw [e1]; omega

/-! ## What a point writes back, and the whole array -/

/-- The product of the two input arrays as entered, index by index. -/
abbrev prod (c : Dev nD) : S10112x128.Idx → EReal :=
  fun j => Cert.Gcn.lin (fun i k => xin V c (ix2 i k)) (fun i k => win V c (ix2 i k)) (j 0) (j 1)

/-- What point `t` writes back is block `t` of the product. -/
theorem flushed_eq (c : Dev nD) (t : Fin cfg0.N) :
    (dat0 (F := Ideal) V c).flushed 2 t = ((cfg0.win 2).blk t).view.read (Elt Ideal) (prod V c) := by
  show (cfg0.win 2).cut (grid0.coords t) ((dat0 (F := Ideal) V c).after 2 t) = _
  rw [after0_2]
  unfold out0_2
  rw [View.canon_unit_zero hz]
  simp only [View.ld_unit_zero (S := S2528x128) hz, View.ld_unit_zero (S := S128x128) hz]
  obtain ⟨e0, e1, -, -, -, -⟩ := idx_facts t
  funext y
  have hy0 : (y 0).val < 2528 := (y 0).isLt
  have hy1 : (y 1).val < 128 := (y 1).isLt
  show (k0_pay1 (F := Ideal) (iblk0 V c 0 t) (iblk0 V c 1 t) : S2528x128.Idx → EReal) y
    = prod V c (((cfg0.win 2).blk t).view.emb y)
  refine pay_block (iblk0 V c 0 t) (iblk0 V c 1 t) (xin V c) (win V c) t.val
    (fun r cc i hi => xblk_apply V c t r cc i hi) (fun cc k => wblk_apply V c t cc k) y _ ?_ ?_
  · show win0_2.index t (0 : Fin 2) * 2528 + 1 * (y 0).val = t.val * 2528 + (y 0).val
    rw [e0]; omega
  · show win0_2.index t (1 : Fin 2) * 128 + 1 * (y 1).val = (y 1).val
    rw [e1]; omega

/-- An index of the output array is in point `t`'s block iff each coordinate is in the block's range on its axis. -/
theorem mem_blk (t : Fin cfg0.N) (i : S10112x128.Idx) :
    i ∈ ((cfg0.win 2).blk t).view.set ↔ ∀ a : Fin 2, win0_2.index t a * S2528x128.size a ≤ (i a).val
      ∧ (i a).val < win0_2.index t a * S2528x128.size a + S2528x128.size a := by
  show i ∈ ((View.whole main_v59).slice (win0_2.rect t)).set ↔ _
  rw [View.set_slice_whole, Rect.mem_set_unit]
  exact Iff.rfl

/-- Row `r` of the output array is written by the point `r / 2528`: the four blocks tile the 10112 rows. -/
theorem cover (i : S10112x128.Idx) :
    ∃ t : Fin cfg0.N, (cfg0.win 2).flush t = true ∧ i ∈ ((cfg0.win 2).blk t).view.set := by
  have hi0 : (i 0).val < 10112 := (i 0).isLt
  have hi1 : (i 1).val < 128 := (i 1).isLt
  have hN : cfg0.N = 4 := N_0
  obtain ⟨t, ht⟩ : ∃ t : Fin cfg0.N, t.val = (i 0).val / 2528 := ⟨⟨(i 0).val / 2528, by rw [hN]; omega⟩, rfl⟩
  obtain ⟨e0, e1, -, -, -, -⟩ := idx_facts t
  refine ⟨t, flush0_2 t, ?_⟩
  rw [mem_blk]
  intro a
  match a with
  | ⟨0, _⟩ =>
    show win0_2.index t (0 : Fin 2) * 2528 ≤ (i 0).val ∧ (i 0).val < win0_2.index t (0 : Fin 2) * 2528 + 2528
    rw [e0]; omega
  | ⟨1, _⟩ =>
    show win0_2.index t (1 : Fin 2) * 128 ≤ (i 1).val ∧ (i 1).val < win0_2.index t (1 : Fin 2) * 128 + 128
    rw [e1]; omega

/-- The output array after the region: the matrix product of the two input arrays as entered. -/
theorem arr (c : Dev nD) :
    ((dat0 (F := Ideal) V c).arrAt 2 cfg0.N : S10112x128.Idx → EReal)
      = fun j => Cert.Gcn.lin (fun i k => xin V c (ix2 i k)) (fun i k => win V c (ix2 i k)) (j 0) (j 1) :=
  (dat0 (F := Ideal) V c).arrAt_eq_of_cover 2 (prod V c) (fun t _ => flushed_eq V c t) cover

end Cert.KernelIdeal.KLin0

end
-- ==== Proof.KAgg1.lean ====
import proofs.«405046_j44195213476075_1_alg».proof.Proof.Gen.KernelIdeal.Frame
import proofs.«405046_j44195213476075_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  Region 1: the neighbour aggregation `A · h + b`, then the positive part, tiled over sixteen row blocks of 632 rows.
  Whatever the entry contents `V` are, after the region the output array holds, at row `i` and column `k`,
  the larger of zero and the sum over `j` of `A i j · h j k` plus `b k`, of the three input arrays as entered: each grid point
  writes the rows of its own block from that block of rows of `A`, all of `h` and the one row of `b`, and the
  sixteen blocks tile the 10112 rows.  At the exact instance the matrix unit's pass into a zero accumulator is the
  plain sum and the maximum with a zero constant is the positive part.
-/

set_option maxRecDepth 16384

noncomputable section

namespace Cert.KernelIdeal.KAgg1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The matrix unit's operand indices -/

private theorem lhs_0 (i : S632x128.Idx) (q : dot_S632x10112_S10112x128_S632x128_1_0_0_1_n_n.contr.Idx) :
    (dot_S632x10112_S10112x128_S632x128_1_0_0_1_n_n.lhsIdx i q 0).val = (i 0).val := by
  unfold DotDims.lhsIdx
  rw [dif_neg (show ¬(0 : Fin S632x10112.rank) ∈ dot_S632x10112_S10112x128_S632x128_1_0_0_1_n_n.lhsBatch by decide), dif_pos (show (0 : Fin S632x10112.rank) ∈ dot_S632x10112_S10112x128_S632x128_1_0_0_1_n_n.lhsNonContracting by decide)]
  rfl
private theorem lhs_1 (i : S632x128.Idx) (q : dot_S632x10112_S10112x128_S632x128_1_0_0_1_n_n.contr.Idx) :
    (dot_S632x10112_S10112x128_S632x128_1_0_0_1_n_n.lhsIdx i q 1).val = (q ⟨0, by decide⟩).val :=
  dot_S632x10112_S10112x128_S632x128_1_0_0_1_n_n.lhsIdx_val_of_single rfl i q
private theorem rhs_0 (i : S632x128.Idx) (q : dot_S632x10112_S10112x128_S632x128_1_0_0_1_n_n.contr.Idx) :
    (dot_S632x10112_S10112x128_S632x128_1_0_0_1_n_n.rhsIdx i q 0).val = (q ⟨0, by decide⟩).val :=
  dot_S632x10112_S10112x128_S632x128_1_0_0_1_n_n.rhsIdx_val_of_single rfl i q
private theorem rhs_1 (i : S632x128.Idx) (q : dot_S632x10112_S10112x128_S632x128_1_0_0_1_n_n.contr.Idx) :
    (dot_S632x10112_S10112x128_S632x128_1_0_0_1_n_n.rhsIdx i q 1).val = (i 1).val := by
  unfold DotDims.rhsIdx
  rw [dif_neg (show ¬(1 : Fin S10112x128.rank) ∈ dot_S632x10112_S10112x128_S632x128_1_0_0_1_n_n.rhsBatch by decide), dif_pos (show (1 : Fin S10112x128.rank) ∈ dot_S632x10112_S10112x128_S632x128_1_0_0_1_n_n.rhsNonContracting by decide)]
  rfl

/-- The matrix unit's pass into a zero accumulator, at row `r` and column `k`: the plain sum of products. -/
private theorem mm_apply (x0 : FVec Ideal S632x10112 .bf16) (x1 : FVec Ideal S10112x128 .bf16) (r : Fin 632) (k : Fin 128) :
    matmul dot_S632x10112_S10112x128_S632x128_1_0_0_1_n_n none x0 x1 (constant (F := Ideal) S632x128 .f32 0x00000000#32) (ix2 r k)
      = ∑ j : Fin 10112, x0 (ix2 r j) * x1 (ix2 j k) := by
  show FloatOps.matmul dot_S632x10112_S10112x128_S632x128_1_0_0_1_n_n none x0 x1 (constant (F := Ideal) S632x128 .f32 0x00000000#32) (ix2 r k) = _
  rw [Ideal.matmul_constant_zero_apply, ← Equiv.sum_comp (contrEquiv1 dot_S632x10112_S10112x128_S632x128_1_0_0_1_n_n 10112 rfl rfl).symm]
  refine Finset.sum_congr rfl fun j _ => ?_
  have hj := contrEquiv1_symm_val dot_S632x10112_S10112x128_S632x128_1_0_0_1_n_n 10112 rfl rfl j
  have el : dot_S632x10112_S10112x128_S632x128_1_0_0_1_n_n.lhsIdx (ix2 r k) ((contrEquiv1 dot_S632x10112_S10112x128_S632x128_1_0_0_1_n_n 10112 rfl rfl).symm j) = ix2 r j := funext fun a => Fin.ext (by
    match a with
    | ⟨0, _⟩ => exact lhs_0 _ _
    | ⟨1, _⟩ => exact (lhs_1 _ _).trans hj)
  have er : dot_S632x10112_S10112x128_S632x128_1_0_0_1_n_n.rhsIdx (ix2 r k) ((contrEquiv1 dot_S632x10112_S10112x128_S632x128_1_0_0_1_n_n 10112 rfl rfl).symm j) = ix2 j k := funext fun a => Fin.ext (by
    match a with
    | ⟨0, _⟩ => exact (rhs_0 _ _).trans hj
    | ⟨1, _⟩ => exact rhs_1 _ _)
  rw [el, er]

/-- The body's payload at row `r` and column `k` of its block: the positive part of the row of the first
    operand times the column of the second, plus the bias at that column. -/
private theorem pay_apply (x0 : Vec Ideal S632x10112 .bf16) (x1 : Vec Ideal S10112x128 .bf16) (x2 : Vec Ideal S1x128 .f32)
    (r : Fin 632) (k : Fin 128) :
    k1_pay1 (F := Ideal) x0 x1 x2 (ix2 r k)
      = Cert.Gcn.relu ((∑ j : Fin 10112, x0 (ix2 r j) * x1 (ix2 j k)) + x2 (ix2 (0 : Fin 1) k)) := by
  unfold k1_pay1
  simp only [shapeCast_self]
  rw [maximumf_apply, addf_apply, mm_apply, broadcastTo_1b_ab_apply, broadcast_apply]
  exact congrArg (max _) Ideal.ofBits_zero_f32

variable (V : (c : Dev nD) → (b : Ref sig .tc) → Buf (Elt Ideal) ((c : Thread nD τ).loc b))

/-- The weight matrix as entered. -/
abbrev ain (c : Dev nD) : S10112x10112.Idx → EReal := V c main_v57
/-- The features as entered. -/
abbrev hin (c : Dev nD) : S10112x128.Idx → EReal := V c main_v59
/-- The bias as entered (one row). -/
abbrev bin (c : Dev nD) : S1x128.Idx → EReal := V c main_v60

/-! ## From the blocks to the array -/

private theorem hz : (![0, 0] : Fin 2 → Nat) = fun _ => 0 := funext fun a => by fin_cases a <;> rfl

/-- What the output array ends holding: at row `i` and column `k` the positive part of row `i` of the matrix
    times column `k` of the features, plus the bias at `k`. -/
private abbrev G (c : Dev nD) : S10112x128.Idx → EReal := fun j =>
  Cert.Gcn.relu (Cert.Gcn.aggDense (fun i j' => ain V c (ix2 i j')) (fun j' k => hin V c (ix2 j' k))
    (fun k => bin V c (ix2 (0 : Fin 1) k)) (j 0) (j 1))

/-- The block indices over the sixteen points: the output's and the matrix's row block is the point itself, on
    the one column block; the features and the bias are whole, at block zero. -/
private theorem idx_facts : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The three input blocks at point `t`, as arrays of extended reals. -/
private abbrev ablk (c : Dev nD) (t : Fin cfg1.N) : S632x10112.Idx → EReal := iblk1 (F := Ideal) V c 0 t
private abbrev hblk (c : Dev nD) (t : Fin cfg1.N) : S10112x128.Idx → EReal := iblk1 (F := Ideal) V c 1 t
private abbrev bblk (c : Dev nD) (t : Fin cfg1.N) : S1x128.Idx → EReal := iblk1 (F := Ideal) V c 2 t

/-- Row `r` of the matrix's block at point `t` is row `632 t + r` of the matrix. -/
private theorem blkA (c : Dev nD) (t : Fin cfg1.N) (r : Fin 632) (j : Fin 10112) (p : Fin 10112)
    (hp : p.val = t.val * 632 + r.val) :
    ablk V c t (ix2 r j) = ain V c (ix2 p j) := by
  obtain ⟨-, -, e2, e3, -, -, -, -⟩ := idx_facts t
  unfold ablk iblk1
  rw [View.read_apply]
  show V c main_v57 _ = V c main_v57 _
  congr 1
  funext a
  apply Fin.ext
  match a with
  | ⟨0, _⟩ => show win1_0.index t (0 : Fin 2) * 632 + 1 * r.val = p.val; omega
  | ⟨1, _⟩ => show win1_0.index t (1 : Fin 2) * 10112 + 1 * j.val = j.val; omega

/-- The features' block at every point is the whole array. -/
private theorem blkH (c : Dev nD) (t : Fin cfg1.N) (j : Fin 10112) (k : Fin 128) :
    hblk V c t (ix2 j k) = hin V c (ix2 j k) := by
  obtain ⟨-, -, -, -, e4, e5, -, -⟩ := idx_facts t
  unfold hblk iblk1
  rw [View.read_apply]
  show V c main_v59 _ = V c main_v59 _
  congr 1
  funext a
  apply Fin.ext
  match a with
  | ⟨0, _⟩ => show win1_1.index t (0 : Fin 2) * 10112 + 1 * j.val = j.val; omega
  | ⟨1, _⟩ => show win1_1.index t (1 : Fin 2) * 128 + 1 * k.val = k.val; omega

/-- The bias's block at every point is its one row. -/
private theorem blkB (c : Dev nD) (t : Fin cfg1.N) (k : Fin 128) :
    bblk V c t (ix2 (0 : Fin 1) k) = bin V c (ix2 (0 : Fin 1) k) := by
  obtain ⟨-, -, -, -, -, -, e6, e7⟩ := idx_facts t
  unfold bblk iblk1
  rw [View.read_apply]
  show V c main_v60 _ = V c main_v60 _
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 128 + 1 * k.val = k.val; omega

/-- The payload of point `t`'s blocks at `y` is `G` at row `632 t + y₀`, column `y₁`. -/
private theorem blk_val (c : Dev nD) (t : Fin cfg1.N) (y : S632x128.Idx) (i : S10112x128.Idx)
    (h0 : (i 0).val = t.val * 632 + (y 0).val) (h1 : (i 1).val = (y 1).val) :
    k1_pay1 (F := Ideal) (ablk V c t) (hblk V c t) (bblk V c t) y = G V c i := by
  obtain ⟨r, k, rfl⟩ : ∃ (r : Fin 632) (k : Fin 128), y = ix2 r k := ⟨y 0, y 1, eq_ix2 y⟩
  obtain ⟨p, q, rfl⟩ : ∃ (p : Fin 10112) (q : Fin 128), i = ix2 p q := ⟨i 0, i 1, eq_ix2 i⟩
  obtain rfl : q = k := Fin.ext h1
  rw [pay_apply]
  have hs : ∀ j : Fin 10112, ablk V c t (ix2 r j) * hblk V c t (ix2 j q) = ain V c (ix2 p j) * hin V c (ix2 j q) :=
    fun j => by rw [blkA V c t r j p h0, blkH V c t j q]
  rw [Finset.sum_congr rfl (fun j _ => hs j), blkB V c t q]
  rfl

/-- What point `t` writes back is block `t` of `G`. -/
private theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz]
  simp only [View.ld_unit_zero (S := S632x10112) hz, View.ld_unit_zero (S := S10112x128) hz, View.ld_unit_zero (S := S1x128) hz]
  obtain ⟨e0, e1, -, -, -, -, -, -⟩ := idx_facts t
  funext y
  show k1_pay1 (F := Ideal) (ablk V c t) (hblk V c t) (bblk V c t) y = G V c (((cfg1.win 3).blk t).view.emb y)
  refine blk_val V c t y _ ?_ ?_
  · show win1_3.index t (0 : Fin 2) * 632 + 1 * (y 0).val = t.val * 632 + (y 0).val; omega
  · show win1_3.index t (1 : Fin 2) * 128 + 1 * (y 1).val = (y 1).val; omega

/-- An index is in point `t`'s block iff each coordinate is in the block's range on its axis. -/
private theorem mem_blk (t : Fin cfg1.N) (i : S10112x128.Idx) :
    i ∈ ((cfg1.win 3).blk t).view.set ↔ ∀ a : Fin 2, win1_3.index t a * S632x128.size a ≤ (i a).val
      ∧ (i a).val < win1_3.index t a * S632x128.size a + S632x128.size a := by
  show i ∈ ((View.whole main_v61).slice (win1_3.rect t)).set ↔ _
  rw [View.set_slice_whole, Rect.mem_set_unit]
  exact Iff.rfl

/-- Row `i` lies in the block of point `i / 632`, and every point writes back: the sixteen blocks tile the rows. -/
private theorem cover (i : S10112x128.Idx) :
    ∃ t : Fin cfg1.N, (cfg1.win 3).flush t = true ∧ i ∈ ((cfg1.win 3).blk t).view.set := by
  have hi0 : (i 0).val < 10112 := (i 0).isLt
  have hi1 : (i 1).val < 128 := (i 1).isLt
  have hN : cfg1.N = 16 := N_1
  obtain ⟨t, ht⟩ : ∃ t : Fin cfg1.N, t.val = (i 0).val / 632 := ⟨⟨(i 0).val / 632, by rw [hN]; omega⟩, rfl⟩
  obtain ⟨e0, e1, -, -, -, -, -, -⟩ := idx_facts t
  refine ⟨t, flush1_3 t, ?_⟩
  rw [mem_blk]
  intro a
  match a with
  | ⟨0, _⟩ =>
    show win1_3.index t (0 : Fin 2) * 632 ≤ (i 0).val ∧ (i 0).val < win1_3.index t (0 : Fin 2) * 632 + 632
    omega
  | ⟨1, _⟩ =>
    show win1_3.index t (1 : Fin 2) * 128 ≤ (i 1).val ∧ (i 1).val < win1_3.index t (1 : Fin 2) * 128 + 128
    omega

/-- The output array after the region. -/
theorem arr (c : Dev nD) :
    ((dat1 (F := Ideal) V c).arrAt 3 cfg1.N : S10112x128.Idx → EReal)
      = fun j => Cert.Gcn.relu (Cert.Gcn.aggDense (fun i j' => ain V c (ix2 i j')) (fun j' k => hin V c (ix2 j' k))
          (fun k => bin V c (ix2 (0 : Fin 1) k)) (j 0) (j 1)) :=
  (dat1 (F := Ideal) V c).arrAt_eq_of_cover 3 (G V c) (fun t _ => flushed_eq V c t) cover

end Cert.KernelIdeal.KAgg1

end
-- ==== Proof.Decode.lean ====
import proofs.«405046_j44195213476075_1_alg».proof.Defs
import proofs.«405046_j44195213476075_1_alg».proof.Proof.Gen.Pre_finite_inputs
import proofs.«405046_j44195213476075_1_alg».proof.Proof.LibReal
import Idealize.ShloMosaic.Lib.ReduceAll
import Idealize.ShloMosaic.Lib.StableHlo.Predicate
import Idealize.ShloMosaic.Lib.ValueIdx

/-!
  What the precondition says, decoded: every float argument holds real numbers, and every entry
  of the edge table is a node number (`0 ≤ · < 10000`, read as a signed 32-bit word).
  Also: the two endpoints of an edge as numbers `Fin 10000`.
-/

noncomputable section

namespace Cert.Decode

open Idealize.ShloMosaic Idealize.ShloMosaic.ValueIdx Cert.LibReal

/-- Every entry of the edge table is a node number. -/
def InRange (ei : IVec (⟨2, ![2, 640000]⟩ : Shape) 32) : Prop :=
  ∀ (r : Fin 2) (e : Fin 640000), 0 ≤ (ei (ix2 r e)).toInt ∧ (ei (ix2 r e)).toInt < 10000

/-- The node a table entry names (the remainder makes the definition total; in range it is the entry). -/
def nodeOf (ei : IVec (⟨2, ![2, 640000]⟩ : Shape) 32) (r : Fin 2) (e : Fin 640000) : Fin 10000 :=
  ⟨(ei (ix2 r e)).toInt.toNat % 10000, Nat.mod_lt _ (by decide)⟩

/-- An edge's source node: row 0 of the table. -/
def srcOf (ei : IVec (⟨2, ![2, 640000]⟩ : Shape) 32) (e : Fin 640000) : Fin 10000 := nodeOf ei 0 e
/-- An edge's destination node: row 1 of the table. -/
def dstOf (ei : IVec (⟨2, ![2, 640000]⟩ : Shape) 32) (e : Fin 640000) : Fin 10000 := nodeOf ei 1 e

/-- The scalar shape has one index. -/
private instance : Subsingleton Cert.Pre_finite_inputs.S_.Idx := ⟨fun _ _ => funext fun d => d.elim0⟩

/-- An extended real whose absolute value `max x (-x)` lies below `⊤` is a real number: at `⊥` and at `⊤` the
    absolute value is `⊤`. -/
private theorem isReal_of_abs_lt_top {x : EReal} (h : max x (-x) < ⊤) : IsReal x := by
  induction x using EReal.rec with
  | bot => simp at h
  | coe r => exact ⟨r, rfl⟩
  | top => simp at h

/-- The pattern `0x7F800000` denotes `+∞`. -/
private theorem inf_bits : Ideal.ofBits .f32 0x7F800000#32 = (⊤ : EReal) := by
  simp [Ideal.ofBits, Ideal.ieee]

/-- One float conjunct: if the conjunction over all entries of `|v| < +∞` is true, every entry of `v` is real. -/
private theorem real_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf v) (broadcastInDim s ![] hb (constant Cert.Pre_finite_inputs.S_ .f32 0x7F800000#32)))
        (constantI Cert.Pre_finite_inputs.S_ 1 1#1) hr h0 ix0 = 1#1) :
    ∀ j, IsReal (v j) := by
  intro j
  have hj := Host.reduce_andi_all _ _ hr h0 ix0 e j
  have hj' : BitVec.ofBool (decide (max (v j) (-(v j)) < Ideal.ofBits .f32 0x7F800000#32)) = 1#1 := hj
  rw [inf_bits, StableHlo.Predicate.ofBool_eq_one_iff, decide_eq_true_eq] at hj'
  exact isReal_of_abs_lt_top hj'

/-- The integer conjunct: if the conjunction over all entries of `0 ≤ e ∧ e < 10000` (signed) is true, every
    entry of the table is a node number. -/
private theorem inRange_of_all (ei : IVec Cert.Pre_finite_inputs.S2x640000 32)
    (hb : Cert.Pre_finite_inputs.S_.BroadcastsInDim Cert.Pre_finite_inputs.S2x640000
      (![] : Fin 0 → Fin Cert.Pre_finite_inputs.S2x640000.rank))
    (hr : Cert.Pre_finite_inputs.S2x640000.ReducesTo [0, 1] Cert.Pre_finite_inputs.S_)
    (h0 : 0 < Cert.Pre_finite_inputs.S_.numel)
    (e : Host.reduce IntOp.andi
        (andi (cmpi .sge ei (broadcastInDim Cert.Pre_finite_inputs.S2x640000 ![] hb (constantI Cert.Pre_finite_inputs.S_ 32 0#32)))
          (cmpi .slt ei (broadcastInDim Cert.Pre_finite_inputs.S2x640000 ![] hb (constantI Cert.Pre_finite_inputs.S_ 32 10000#32))))
        (constantI Cert.Pre_finite_inputs.S_ 1 1#1) hr h0 ix0 = 1#1) :
    InRange ei := by
  intro r k
  have hj := Host.reduce_andi_all _ _ hr h0 ix0 e (ix2 r k)
  have hj' : IntOp.andi (IntOp.cmpi .sge (ei (ix2 r k)) 0#32) (IntOp.cmpi .slt (ei (ix2 r k)) 10000#32) = 1#1 := hj
  rw [IntOp.andi_eq_one, IntOp.cmpi_sge, IntOp.cmpi_slt] at hj'
  have z : (0#32 : BitVec 32).toInt = 0 := by decide
  have t : (10000#32 : BitVec 32).toInt = 10000 := by decide
  rw [z, t] at hj'
  exact hj'

/-- In range, the node's number is the table entry read as a signed word. -/
theorem nodeOf_val {ei : IVec (⟨2, ![2, 640000]⟩ : Shape) 32} (h : InRange ei) (r : Fin 2) (e : Fin 640000) :
    ((nodeOf ei r e).val : Int) = (ei (ix2 r e)).toInt := by
  obtain ⟨h0, h1⟩ := h r e
  show (((ei (ix2 r e)).toInt.toNat % 10000 : Nat) : Int) = (ei (ix2 r e)).toInt
  omega

/-- The precondition, decoded. -/
theorem of_pre
    (x : FVec Ideal Cert.Pre_finite_inputs.S10000x128 .f32) (ei : IVec Cert.Pre_finite_inputs.S2x640000 32)
    (batch : IVec Cert.Pre_finite_inputs.S10000 32)
    (W0 : FVec Ideal Cert.Pre_finite_inputs.S128x128 .f32) (b0 : FVec Ideal Cert.Pre_finite_inputs.S128 .f32)
    (W1 : FVec Ideal Cert.Pre_finite_inputs.S128x128 .f32) (b1 : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x ei batch W0 b0 W1 b1 W2 b2 = fun _ => 1#1) :
    (∀ j, IsReal (x j)) ∧ InRange ei ∧ (∀ j, IsReal (W0 j)) ∧ (∀ j, IsReal (b0 j)) ∧ (∀ j, IsReal (W1 j))
      ∧ (∀ j, IsReal (b1 j)) ∧ (∀ j, IsReal (W2 j)) ∧ (∀ j, IsReal (b2 j)) := by
  -- a conjunction of scalar truth values is true exactly when both are
  have andS : ∀ a b : IVec Cert.Pre_finite_inputs.S_ 1, andi a b ix0 = 1#1 ↔ a ix0 = 1#1 ∧ b ix0 = 1#1 :=
    fun _ _ => IntOp.andi_eq_one
  have e := congrFun h ix0
  dsimp only [Cert.Pre_finite_inputs.fn, Cert.Pre_finite_inputs.fn_part1, Cert.Pre_finite_inputs.fn_part2] at e
  simp only [andS] at e
  obtain ⟨⟨⟨⟨⟨⟨⟨hx, hW0⟩, hb0⟩, hW1⟩, hb1⟩, hW2⟩, hb2⟩, hei⟩ := e
  exact ⟨real_of_all x _ _ _ hx, inRange_of_all ei _ _ _ hei, real_of_all W0 _ _ _ hW0, real_of_all b0 _ _ _ hb0,
    real_of_all W1 _ _ _ hW1, real_of_all b1 _ _ _ hb1, real_of_all W2 _ _ _ hW2, real_of_all b2 _ _ _ hb2⟩

end Cert.Decode

end
-- ==== Proof.RefRun.lean ====
import proofs.«405046_j44195213476075_1_alg».proof.Defs
import proofs.«405046_j44195213476075_1_alg».proof.Proof.Gen.ReferenceIdeal
import proofs.«405046_j44195213476075_1_alg».proof.Proof.Gen.ReferenceIdeal.Run
import proofs.«405046_j44195213476075_1_alg».proof.Proof.Gen.ReferenceIdeal.Read

/-! The reference's run, read back (the generated run and its read-at-an-index lemmas are imported here). -/
-- ==== Proof.RefReal.lean ====
import proofs.«405046_j44195213476075_1_alg».proof.Proof.RefRun
import proofs.«405046_j44195213476075_1_alg».proof.Proof.LibReal

/-!
  The normalisation weights are real numbers.  A node's degree is one plus the number of edges
  into it, a real number at least one; its inverse square root is therefore a real number, and so
  is every product of two of them.
-/

noncomputable section

namespace Cert.RefReal

open Idealize.ShloMosaic Idealize.ShloMosaic.ValueIdx Cert.LibReal Cert.ReferenceIdeal Cert.ReferenceIdeal.Gen Cert.ReferenceIdeal.Read

/-- The inverse square root of (in-degree + 1), per node, as the reference computes it from the edge table. -/
abbrev disR (ei : IVec S2x640000 32) : FVec Ideal S10000 .f32 := val_main_v11 (F := Ideal) ei
/-- The weight of an edge, as the reference computes it: the product of its endpoints' `disR`. -/
abbrev wR (ei : IVec S2x640000 32) : FVec Ideal S640000 .f32 := val_main_v33 (F := Ideal) ei

/-- The bit pattern of `1.0` denotes the real number one. -/
private theorem ofBits_one_f32 : Ideal.ofBits .f32 0x3F800000#32 = 1 :=
  IdealRules.sign_bit.ideal_onePat .f32

/-- A finite sum of ones is the number of its terms. -/
private theorem sum_one_eq_card {ι : Type} (s : Finset ι) :
    (∑ _j ∈ s, (1 : EReal)) = ((s.card : ℝ) : EReal) := by
  have h := coe_sum s (fun _ => (1 : ℝ))
  rw [Finset.sum_const, nsmul_eq_mul, mul_one] at h
  rw [h]
  exact Finset.sum_congr rfl fun _ _ => EReal.coe_one

/-- Zero, plus a finite sum of ones, plus one, is a real number at least one. -/
private theorem zero_add_sum_one_add_one {ι : Type} (s : Finset ι) (z o : EReal) (upd : ι → EReal)
    (hz : z = 0) (hu : ∀ j, upd j = 1) (ho : o = 1) :
    ∃ r : ℝ, 1 ≤ r ∧ z + ∑ j ∈ s, upd j + o = (r : EReal) := by
  refine ⟨(s.card : ℝ) + 1, ?_, ?_⟩
  · have h : (0 : ℝ) ≤ (s.card : ℝ) := Nat.cast_nonneg _
    linarith
  · rw [hz, ho, zero_add, Finset.sum_congr rfl (fun j _ => hu j), sum_one_eq_card, EReal.coe_add,
      EReal.coe_one]

/-- The inverse square root of a real number at least one is a real number. -/
private theorem rsqrt_isReal_of_one_le {r : ℝ} (h : 1 ≤ r) : IsReal (Ideal.rsqrt (r : EReal)) := by
  rw [Ideal.rsqrt_coe, if_neg (not_lt.mpr (by linarith)), if_neg (by intro h0; rw [h0] at h; linarith)]
  exact IsReal.coe _

/-- The accumulating scatter of ones into zeros, plus one, then the inverse square root: a real
    number at every index, whatever the scatter's indices are. -/
private theorem rsqrt_scatter_isReal {s si su : Shape} {w : Nat} (d : ScatterDims s si su)
    (x o : FVec Ideal s .f32) (idx : IVec si w) (upd : FVec Ideal su .f32)
    (hx : ∀ i, x i = 0) (hu : ∀ j, upd j = 1) (ho : ∀ i, o i = 1) (i : s.Idx) :
    IsReal (Ideal.rsqrt (Host.scatterAdd d x idx upd i + o i)) := by
  unfold Host.scatterAdd
  rw [Ideal.hostScatterAdd_def]
  unfold Ideal.hostScatterAdd
  obtain ⟨r, hr, he⟩ := zero_add_sum_one_add_one _ (x i) (o i) upd (hx i) hu (ho i)
  rw [he]
  exact rsqrt_isReal_of_one_le hr

theorem disR_isReal (ei : IVec S2x640000 32) (j : S10000.Idx) : IsReal (disR ei j) := by
  show IsReal (val_main_v11 (F := Ideal) ei j)
  rw [val_main_v11_apply, val_main_v10_apply, Ideal.hostUnary_rsqrt_def, Ideal.addf_def]
  unfold val_main_v8
  refine rsqrt_scatter_isReal _ _ _ _ _ ?_ ?_ ?_ j
  · intro i
    rw [val_main_v6_apply, val_main_cst_0_apply, Ideal.ofBits_def, Ideal.ofBits_zero_f32]
  · intro k
    rw [val_main_v5_apply, val_main_cst_apply, Ideal.ofBits_def, ofBits_one_f32]
  · intro i
    rw [val_main_v9_apply, val_main_cst_1_apply, Ideal.ofBits_def, ofBits_one_f32]

theorem wR_isReal (ei : IVec S2x640000 32) (j : S640000.Idx) : IsReal (wR ei j) := by
  show IsReal (val_main_v33 (F := Ideal) ei j)
  rw [val_main_v33_apply, Ideal.mulf_def]
  unfold val_main_v25 val_main_v32 Host.gather
  exact IsReal.mul (disR_isReal ei _) (disR_isReal ei _)

end Cert.RefReal

end
-- ==== Proof.KHostA.lean ====
import proofs.«405046_j44195213476075_1_alg».proof.Proof.Gen.KernelIdeal.Frame
import proofs.«405046_j44195213476075_1_alg».proof.Proof.Spec
import proofs.«405046_j44195213476075_1_alg».proof.Proof.Decode
import proofs.«405046_j44195213476075_1_alg».proof.Proof.RefReal
import Idealize.ShloMosaic.Lib.StableHlo.Run
import Idealize.ShloMosaic.Lib.StableHlo.Predicate
import Idealize.ShloMosaic.Lib.ValueIdx
import Idealize.ShloMosaic.Lib.ValueIdxRank1
import Idealize.ShloMosaic.Lib.Pipeline.Value
import Idealize.ShloMosaic.Lib.Affine
import Mathlib.Algebra.BigOperators.Group.Finset.Basic
import Mathlib.Data.Finset.Filter

/-!
  The dense weight matrix the kernel's host code builds before its first region.
  From the edge table it computes the nodes' inverse-square-root degrees and the edges' weights by the very
  operations the reference uses, adds each edge's weight into a zero matrix over the padded range at
  (destination, source), then each node's squared inverse-square-root degree on the diagonal, and changes the float
  format (the identity at the exact instance).  With every table entry a node number, no index wraps or is dropped,
  and the matrix is `Cert.Gcn.dense` of the reference's own weights.

  The proof has three parts.  The operations of the stretch compose to one term over the edge table (`adjK`).
  An accumulating scatter of a vector of updates into a matrix, whose index table has one (row, column) pair per
  update, holds at an entry what was there plus the updates whose pair is that entry: an update lands on an entry
  exactly when its pair, read signed, is the entry's coordinates.  And in range every pair of the edge scatter is
  (destination, source) as it stands in the table, every pair of the diagonal scatter is (n, n): the two sums are
  those of `Cert.Gcn.dense`.
-/

set_option maxRecDepth 16384

noncomputable section

namespace Cert.KernelIdeal.KHostA

open Cert.KernelIdeal Cert.KernelIdeal.Gen Idealize.ShloMosaic Idealize.ShloMosaic.TcCoe Idealize.ShloMosaic.ValueIdx
open Idealize.ShloMosaic.StableHlo Idealize.SL.Sem
open Cert.Decode Cert.RefReal Cert.LibReal

/-! ## The host stretch as a term over the edge table -/

section Terms
variable (ei : IVec S2x640000 32)

/-- Row 0 of the edge table as a vector: the sources. -/
private def srcK : IVec S640000 32 := fun i =>
  shapeCast S640000 (extractStridedSlice S1x640000 ![0, 0] ei slices_S2x640000_S1x640000_0_0) shapeCasts_S1x640000_S640000 i
/-- Row 1 of the edge table as a vector: the destinations. -/
private def dstK : IVec S640000 32 := fun i =>
  shapeCast S640000 (extractStridedSlice S1x640000 ![1, 0] ei slices_S2x640000_S1x640000_1_0) shapeCasts_S1x640000_S640000 i

/-- A signed index read the way a negative one is: `N` is added to a negative word. -/
private def wrap (N : BitVec 32) (v : IVec S640000 32) : IVec S640000 32 :=
  select (cmpi .slt v (broadcastInDim S640000 ![] bcast_S_S640000 (constantI S_ 32 0#32)))
    (addi v (broadcastInDim S640000 ![] bcast_S_S640000 (constantI S_ 32 N))) v
/-- A vector of edge words as a one-column table. -/
private def col (v : IVec S640000 32) : IVec S640000x1 32 := broadcastInDim S640000x1 ![0] bcast_S640000_S640000x1_0 v

/-- The inverse square root of (in-degree + 1), per node. -/
private def disK : FVec Ideal S10000 .f32 :=
  Host.rsqrt (addf
    (Host.scatterAdd scatter_S10000_S640000x1_S640000_n_0_0_1
      (broadcastInDim S10000 ![] bcast_S_S10000 (constant S_ .f32 0x00000000#32)) (col (dstK ei))
      (broadcastInDim S640000 ![] bcast_S_S640000 (constant S_ .f32 0x3F800000#32)))
    (broadcastInDim S10000 ![] bcast_S_S10000 (constant S_ .f32 0x3F800000#32)))
/-- An edge's weight: the product of its endpoints' inverse square roots. -/
private def wK : FVec Ideal S640000 .f32 :=
  mulf (Host.gather gather_S10000_S640000x1_S640000_n_0_n_n_0_1_1 (disK ei) (col (wrap 10000#32 (srcK ei))))
    (Host.gather gather_S10000_S640000x1_S640000_n_0_n_n_0_1_1 (disK ei) (col (wrap 10000#32 (dstK ei))))

/-- Two one-column tables side by side. -/
private def cat (a b : IVec S640000x1 32) : IVec S640000x2 32 :=
  concatenate S640000x2 1 [⟨S640000x1, a⟩, ⟨S640000x1, b⟩] concatenates_S640000x1_S640000x1_S640000x2_d1
/-- The edges' matrix positions: (destination, source), each read into the padded range. -/
private def edgeIdx : IVec S640000x2 32 := cat (col (wrap 10112#32 (dstK ei))) (col (wrap 10112#32 (srcK ei)))

/-- The node numbers, each read into the padded range. -/
private def iotaW : IVec S10000 32 :=
  select (cmpi .slt (iotaInDim S10000 32 0) (broadcastInDim S10000 ![] bcast_S_S10000 (constantI S_ 32 0#32)))
    (addi (iotaInDim S10000 32 0) (broadcastInDim S10000 ![] bcast_S_S10000 (constantI S_ 32 10112#32))) (iotaInDim S10000 32 0)
/-- Two one-column tables of node words side by side. -/
private def catN (a b : IVec S10000x1 32) : IVec S10000x2 32 :=
  concatenate S10000x2 1 [⟨S10000x1, a⟩, ⟨S10000x1, b⟩] concatenates_S10000x1_S10000x1_S10000x2_d1
/-- The diagonal positions (n, n). -/
private def diagIdx : IVec S10000x2 32 :=
  catN (broadcastInDim S10000x1 ![0] bcast_S10000_S10000x1_0 iotaW) (broadcastInDim S10000x1 ![0] bcast_S10000_S10000x1_0 iotaW)

/-- The matrix the stretch leaves: edge weights added at (destination, source) into zeros, then the squared inverse
    square roots on the diagonal, then the change of float format. -/
private def adjK : FVec Ideal S10112x10112 .bf16 :=
  truncf .bf16
    (Host.scatterAdd scatter_S10112x10112_S10000x2_S10000_n_01_01_1
      (Host.scatterAdd scatter_S10112x10112_S640000x2_S640000_n_01_01_1
        (broadcastInDim S10112x10112 ![] bcast_S_S10112x10112 (constant S_ .f32 0x00000000#32)) (edgeIdx ei) (wK ei))
      diagIdx (mulf (disK ei) (disK ei)))
    bitsLt_bf16_f32

end Terms

/-- The printed pair of columns is `cat`. -/
private theorem cat_fold (a b : (⟨S640000x1, .i32⟩ : BufTy).Contents (Elt Ideal)) :
    concatenate S640000x2 1 [⟨S640000x1, a⟩, ⟨S640000x1, b⟩] concatenates_S640000x1_S640000x1_S640000x2_d1 = cat a b := rfl
/-- The printed pair of node columns is `catN`. -/
private theorem catN_fold (a b : (⟨S10000x1, .i32⟩ : BufTy).Contents (Elt Ideal)) :
    concatenate S10000x2 1 [⟨S10000x1, a⟩, ⟨S10000x1, b⟩] concatenates_S10000x1_S10000x1_S10000x2_d1 = catN a b := rfl

set_option maxHeartbeats 8000000 in
/-- What the first host stretch leaves in the matrix buffer, as a term over the edge table it started from: each
    operation's result read at its own buffer, every other buffer as it was. -/
private theorem after_eq (W : Valuation τ sig (Elt Ideal)) :
    StableHlo.after hostOps0 W (Proc.devRef .tc main_v57) = adjK (W (Proc.devRef .tc main_arg1)) := by
  simp (disch := decide) only [after_cons, after_nil,
      nullary_result', unary_result', binary_result', ternary_result', reshape_result',
      nullary_result_ne', unary_result_ne', binary_result_ne', ternary_result_ne', reshape_result_ne',
      cat_fold, catN_fold]
  rfl

/-! ## An accumulating scatter of a vector of updates into a matrix, read at one entry -/

section Scatter

/-- An update lands on an entry exactly when, on every axis, its start plus its window coordinate is the entry's
    coordinate: a landing place inside the operand is the only kind an entry can be. -/
private theorem resultIdx?_eq_some_iff {s si u : Shape} (d : ScatterDims s si u) {w : Nat} (j : u.Idx) (idx : IVec si w) (q : s.Idx) :
    d.resultIdx? j idx = some q ↔ ∀ a, d.start j idx a + (d.window j a : Int) = ((q a).val : Int) := by
  unfold ScatterDims.resultIdx?
  split
  · rename_i h
    rw [Option.some.injEq]
    constructor
    · intro e a
      have h1 := congrArg (fun f => (f a).val) e
      have h2 := (h a).1
      simp only at h1
      omega
    · intro e
      funext a
      apply Fin.ext
      have h1 := e a
      show (d.start j idx a + (d.window j a : Int)).toNat = (q a).val
      omega
  · rename_i h
    constructor
    · intro e
      exact absurd e (by simp)
    · intro e
      refine absurd (fun a => ?_) h
      have h1 := e a
      have h2 := (q a).isLt
      constructor <;> omega

variable {n N0 N1 : Nat}

/-- A rank-1 index has the one coordinate whatever name its axis goes by. -/
private theorem ix1_val (e : Fin n) (X : Fin 1) : ((ix1 e : (⟨1, ![n]⟩ : Shape).Idx) X).val = e.val := by
  have hX : X = 0 := Subsingleton.elim _ _
  subst hX; rfl

/-- With the index vector along axis 1 of an [n × 2] table, update `e` reads component `k` of its start at row `e`,
    column `k`. -/
private theorem siIdx_pair (d : ScatterDims ⟨2, ![N0, N1]⟩ ⟨2, ![n, 2]⟩ ⟨1, ![n]⟩) (hiv : d.indexVectorDim = 1) (e : Fin n)
    (c : Fin d.scatterDimsToOperandDims.length) (k : Fin 2) (hk : k.val = c.val) :
    d.siIdx (ix1 e) c = ix2 e k := by
  funext b
  match b with
  | ⟨0, _⟩ =>
    unfold ScatterDims.siIdx
    rw [dif_neg (by rw [hiv]; exact Nat.zero_ne_one)]
    unfold ScatterDims.siCoord
    apply Fin.ext
    simp only [Fin.val_cast]
    exact ix1_val e _
  | ⟨1, _⟩ =>
    unfold ScatterDims.siIdx
    rw [dif_pos (by rw [hiv])]
    apply Fin.ext
    exact hk.symm

/-- Both operand axes inserted and both named by the index vector: the update `e` lands at (row `e` column 0, row `e`
    column 1) of the index table, each read signed. -/
private theorem scatter_pair_lands (d : ScatterDims ⟨2, ![N0, N1]⟩ ⟨2, ![n, 2]⟩ ⟨1, ![n]⟩)
    (hk : d.sKept = []) (hsd : d.scatterDimsToOperandDims = [0, 1]) (hiv : d.indexVectorDim = 1)
    {w : Nat} (idx : IVec ⟨2, ![n, 2]⟩ w) (e : Fin n) (q : (⟨2, ![N0, N1]⟩ : Shape).Idx) :
    d.resultIdx? (ix1 e) idx = some q
      ↔ (idx (ix2 e 0)).toInt = ((q 0).val : Int) ∧ (idx (ix2 e 1)).toInt = ((q 1).val : Int) := by
  rw [resultIdx?_eq_some_iff, Fin.forall_fin_two]
  have hw : ∀ a, d.window (ix1 e) a = 0 := fun a => by
    unfold ScatterDims.window
    rw [dif_neg (by rw [hk]; exact List.not_mem_nil)]
  have hm0 : (0 : Fin 2) ∈ d.scatterDimsToOperandDims := by rw [hsd]; simp
  have hm1 : (1 : Fin 2) ∈ d.scatterDimsToOperandDims := by rw [hsd]; simp
  have hs0 : d.start (ix1 e) idx 0 = (idx (ix2 e 0)).toInt := by
    unfold ScatterDims.start
    rw [dif_pos hm0, siIdx_pair d hiv e _ 0 (by show 0 = List.idxOf (0 : Fin 2) d.scatterDimsToOperandDims; rw [hsd]; rfl)]
  have hs1 : d.start (ix1 e) idx 1 = (idx (ix2 e 1)).toInt := by
    unfold ScatterDims.start
    rw [dif_pos hm1, siIdx_pair d hiv e _ 1 (by show 1 = List.idxOf (1 : Fin 2) d.scatterDimsToOperandDims; rw [hsd]; rfl)]
  rw [hw 0, hw 1, hs0, hs1]
  simp only [Nat.cast_zero, add_zero]

/-- The accumulating scatter at the exact instance, read at one entry: what was there plus the updates whose index
    pair is the entry's coordinates. -/
private theorem scatterAdd_pair_apply {φ : FTy} (d : ScatterDims ⟨2, ![N0, N1]⟩ ⟨2, ![n, 2]⟩ ⟨1, ![n]⟩)
    (hk : d.sKept = []) (hsd : d.scatterDimsToOperandDims = [0, 1]) (hiv : d.indexVectorDim = 1)
    {w : Nat} (x : FVec Ideal ⟨2, ![N0, N1]⟩ φ) (idx : IVec ⟨2, ![n, 2]⟩ w) (upd : FVec Ideal ⟨1, ![n]⟩ φ)
    (q : (⟨2, ![N0, N1]⟩ : Shape).Idx) :
    Host.scatterAdd d x idx upd q
      = x q + ∑ e ∈ Finset.univ.filter (fun e : Fin n =>
          (idx (ix2 e 0)).toInt = ((q 0).val : Int) ∧ (idx (ix2 e 1)).toInt = ((q 1).val : Int)), upd (ix1 e) := by
  unfold Host.scatterAdd
  rw [Ideal.hostScatterAdd_def]
  unfold Ideal.hostScatterAdd
  congr 1
  refine Finset.sum_equiv idxEquiv1 (fun u => ?_) (fun u _ => ?_)
  · obtain ⟨e, rfl⟩ : ∃ e, u = ix1 e := ⟨u 0, eq_ix1 u⟩
    rw [Finset.mem_filter, Finset.mem_filter, scatter_pair_lands d hk hsd hiv]
    simp only [Finset.mem_univ, true_and]
    exact Iff.rfl
  · exact congrArg upd (eq_ix1 u)

end Scatter

/-! ## Layout operations and the negative-index wrap, read at an index -/

section Layout
variable {n : Nat} {α : Type}

/-- A vector as an [n × 1] column reads, at row `e`, the vector at `e`. -/
private theorem column_apply (h : (⟨1, ![n]⟩ : Shape).BroadcastsInDim ⟨2, ![n, 1]⟩ ![0]) (v : (⟨1, ![n]⟩ : Shape).Idx → α)
    (e : Fin n) (k : Fin 1) : broadcastInDim ⟨2, ![n, 1]⟩ ![0] h v (ix2 e k) = v (ix1 e) :=
  broadcastInDim_apply _ h v (ix2 e k) (ix1 e) (fun a => match a with
    | ⟨0, _⟩ => by
      show e.val = if n = 1 then 0 else e.val
      have := e.isLt
      split <;> omega)

/-- Two [n × 1] columns side by side read, in column 0, the first. -/
private theorem pair_apply_zero (h : Shape.Concatenates [(⟨2, ![n, 1]⟩ : Shape), ⟨2, ![n, 1]⟩] ⟨2, ![n, 2]⟩ 1)
    (a b : (⟨2, ![n, 1]⟩ : Shape).Idx → α) (e : Fin n) :
    concatenate ⟨2, ![n, 2]⟩ 1 [⟨⟨2, ![n, 1]⟩, a⟩, ⟨⟨2, ![n, 1]⟩, b⟩] h (ix2 e 0) = a (ix2 e 0) :=
  concatenate_pair_apply_left 1 a b h (ix2 e 0) rfl (ix2 e 0) (fun t => match t with
    | ⟨0, _⟩ => rfl
    | ⟨1, _⟩ => rfl)

/-- … and, in column 1, the second. -/
private theorem pair_apply_one (h : Shape.Concatenates [(⟨2, ![n, 1]⟩ : Shape), ⟨2, ![n, 1]⟩] ⟨2, ![n, 2]⟩ 1)
    (a b : (⟨2, ![n, 1]⟩ : Shape).Idx → α) (e : Fin n) :
    concatenate ⟨2, ![n, 2]⟩ 1 [⟨⟨2, ![n, 1]⟩, a⟩, ⟨⟨2, ![n, 1]⟩, b⟩] h (ix2 e 1) = b (ix2 e 0) :=
  concatenate_pair_apply_right 1 a b h (ix2 e 1) rfl rfl (ix2 e 0)
    (fun t ht => match t with
      | ⟨0, _⟩ => rfl
      | ⟨1, _⟩ => absurd rfl ht)
    rfl

/-- Adding the extent to a negative index leaves a non-negative one as it is. -/
private theorem wrap_nonneg {s : Shape} (v z N : IVec s 32) (i : s.Idx) (hz : z i = 0#32) (h : 0 ≤ (v i).toInt) :
    select (cmpi .slt v z) (addi v N) v i = v i := by
  show Scalar.select (IntOp.cmpi .slt (v i) (z i)) _ (v i) = v i
  have hc : IntOp.cmpi .slt (v i) (z i) = 0#1 := eq_zero_of_ne_one fun h1 => by
    rw [IntOp.cmpi_slt, hz] at h1
    have z0 : (0#32 : BitVec 32).toInt = 0 := by decide
    omega
  rw [hc, select_zero]

end Layout

/-! ## The stretch's vectors and index tables, read -/

section Reads
variable (ei : IVec S2x640000 32)

private theorem srcK_apply (e : Fin 640000) : srcK ei (ix1 e) = ei (ix2 0 e) := by
  unfold srcK
  rw [shapeCast_apply _ shapeCasts_S1x640000_S640000 (ix1 e) (ix2 (0 : Fin 1) e) (by
    rewrite [Shape.rowMajor_val_two, Shape.rowMajor_val_one]; show 0 * 640000 + e.val = e.val; omega)]
  exact extractStridedSlice_apply ![0, 0] ei slices_S2x640000_S1x640000_0_0 (ix2 (0 : Fin 1) e) (ix2 0 e) (fun a => match a with
    | ⟨0, _⟩ => rfl
    | ⟨1, _⟩ => by show e.val = 0 + e.val; omega)

private theorem dstK_apply (e : Fin 640000) : dstK ei (ix1 e) = ei (ix2 1 e) := by
  unfold dstK
  rw [shapeCast_apply _ shapeCasts_S1x640000_S640000 (ix1 e) (ix2 (0 : Fin 1) e) (by
    rewrite [Shape.rowMajor_val_two, Shape.rowMajor_val_one]; show 0 * 640000 + e.val = e.val; omega)]
  exact extractStridedSlice_apply ![1, 0] ei slices_S2x640000_S1x640000_1_0 (ix2 (0 : Fin 1) e) (ix2 1 e) (fun a => match a with
    | ⟨0, _⟩ => rfl
    | ⟨1, _⟩ => by show e.val = 0 + e.val; omega)

/-- A non-negative word is read as it is. -/
private theorem wrap_apply (N : BitVec 32) (v : IVec S640000 32) (e : Fin 640000) (h : 0 ≤ (v (ix1 e)).toInt) :
    wrap N v (ix1 e) = v (ix1 e) := by
  unfold wrap
  exact wrap_nonneg _ _ _ _ rfl h

/-- In range, an edge's row position is its destination's table entry. -/
private theorem edgeIdx_zero (hr : InRange ei) (e : Fin 640000) : edgeIdx ei (ix2 e 0) = ei (ix2 1 e) := by
  unfold edgeIdx cat
  rw [pair_apply_zero]
  unfold col
  rw [column_apply, wrap_apply _ _ _ (by rw [dstK_apply]; exact (hr 1 e).1), dstK_apply]

/-- In range, an edge's column position is its source's table entry. -/
private theorem edgeIdx_one (hr : InRange ei) (e : Fin 640000) : edgeIdx ei (ix2 e 1) = ei (ix2 0 e) := by
  unfold edgeIdx cat
  rw [pair_apply_one]
  unfold col
  rw [column_apply, wrap_apply _ _ _ (by rw [srcK_apply]; exact (hr 0 e).1), srcK_apply]

/-- A node's number, as a word, read signed. -/
private theorem iotaW_toInt (k : Fin 10000) : (iotaW (ix1 k)).toInt = (k.val : Int) := by
  have hk := k.isLt
  have e0 : (iotaInDim S10000 32 0 (ix1 k)).toInt = (k.val : Int) :=
    StableHlo.Predicate.toInt_ofNat_small k.val (by omega)
  unfold iotaW
  rw [wrap_nonneg _ _ _ _ rfl (by rw [e0]; omega), e0]

/-- Both coordinates of node `k`'s diagonal position are `k`. -/
private theorem diagIdx_toInt (k : Fin 10000) (c : Fin 2) : (diagIdx (ix2 k c)).toInt = (k.val : Int) := by
  unfold diagIdx catN
  match c with
  | ⟨0, _⟩ => rw [show (ix2 k (⟨0, by decide⟩ : Fin 2) : S10000x2.Idx) = ix2 k 0 from rfl, pair_apply_zero, column_apply, iotaW_toInt]
  | ⟨1, _⟩ => rw [show (ix2 k (⟨1, by decide⟩ : Fin 2) : S10000x2.Idx) = ix2 k 1 from rfl, pair_apply_one, column_apply, iotaW_toInt]

/-- The stretch's inverse square roots are the reference's: the same operations on the same table. -/
private theorem disK_eq : disK ei = disR ei := rfl

/-- The stretch's edge weights are the reference's. -/
private theorem wK_eq : wK ei = wR ei := rfl

end Reads

/-! ## The matrix -/

/-- In range, the term the stretch computes is the dense weight matrix of the reference's weights. -/
private theorem adjK_eq (ei : IVec S2x640000 32) (hr : InRange ei) (q : S10112x10112.Idx) :
    adjK ei q = Cert.Gcn.dense (srcOf ei) (dstOf ei) (fun e => wR ei (ix1 e))
      (fun k => disR ei (ix1 k) * disR ei (ix1 k)) (q 0) (q 1) := by
  unfold adjK
  rw [truncf_apply,
    scatterAdd_pair_apply scatter_S10112x10112_S10000x2_S10000_n_01_01_1 rfl rfl rfl,
    scatterAdd_pair_apply scatter_S10112x10112_S640000x2_S640000_n_01_01_1 rfl rfl rfl]
  have hz : broadcastInDim S10112x10112 ![] bcast_S_S10112x10112 (constant (F := Ideal) S_ .f32 0x00000000#32) q = 0 :=
    Ideal.ofBits_zero_f32
  rw [hz, zero_add]
  unfold Cert.Gcn.dense
  refine congrArg₂ (· + ·) ?_ ?_
  · refine Finset.sum_congr (Finset.filter_congr fun e _ => ?_) (fun e _ => ?_)
    · rw [edgeIdx_zero ei hr, edgeIdx_one ei hr, ← nodeOf_val hr 1 e, ← nodeOf_val hr 0 e]
      show _ ↔ (nodeOf ei 1 e).val = (q 0).val ∧ (nodeOf ei 0 e).val = (q 1).val
      omega
    · rw [wK_eq]
  · refine Finset.sum_congr (Finset.filter_congr fun k _ => ?_) (fun k _ => ?_)
    · rw [diagIdx_toInt, diagIdx_toInt]
      omega
    · rw [mulf_apply, disK_eq]

variable (m : (ℓ : Loc nD τ sig) → Buf (Elt Ideal) ℓ) (ρ : Dev nD → PrngReg)

/-- The edge table as launched. -/
abbrev eiK (c : Dev nD) : IVec (⟨2, ![2, 640000]⟩ : Shape) 32 := m ((c : Thread nD τ).loc main_arg1)

/-- After the first host stretch the matrix buffer holds the dense weight matrix of the reference's weights. -/
theorem adj (c : Dev nD) (hr : InRange (eiK m c)) :
    (W1 (F := Ideal) m ρ c (Proc.devRef .tc main_v57) : S10112x10112.Idx → EReal)
      = fun j => Cert.Gcn.dense (srcOf (eiK m c)) (dstOf (eiK m c)) (fun e => wR (eiK m c) (ix1 e))
          (fun n => disR (eiK m c) (ix1 n) * disR (eiK m c) (ix1 n)) (j 0) (j 1) := by
  show StableHlo.after hostOps0 (W0 m ρ c) (Proc.devRef .tc main_v57) = _
  rw [after_eq]
  funext j
  exact adjK_eq (eiK m c) hr j

end Cert.KernelIdeal.KHostA

end
-- ==== Proof.RefValue.lean ====
import proofs.«405046_j44195213476075_1_alg».proof.Proof.RefRun
import proofs.«405046_j44195213476075_1_alg».proof.Proof.RefReal
import proofs.«405046_j44195213476075_1_alg».proof.Proof.Spec
import proofs.«405046_j44195213476075_1_alg».proof.Proof.Decode

/-!
  The reference's result, as one function of its arguments: the mean pool of the three-layer
  network in its edge form (Spec), the edges' endpoints decoded from the edge table.
-/

noncomputable section

namespace Cert.RefValue

open Idealize.ShloMosaic Idealize.ShloMosaic.ValueIdx Cert.LibReal Cert.Gcn Cert.Decode Cert.RefReal
open Cert.ReferenceIdeal Cert.ReferenceIdeal.Gen Cert.ReferenceIdeal.Read
open scoped BigOperators

/-- The mean pool over graphs: per graph the sum of its nodes' rows over the larger of its node count and one. -/
def poolR (x3 : FVec Ideal S10000x128 .f32) (batch : IVec S10000 32) : FVec Ideal S64x128 .f32 :=
  Host.divf
    (Host.scatterAdd scatter_S64x128_S10000x1_S10000x128_1_0_0_1
      (broadcastInDim S64x128 ![] bcast_S_S64x128 (constant S_ .f32 0x00000000#32))
      (broadcastInDim S10000x1 ![0] bcast_S10000_S10000x1_0 batch) x3)
    (broadcastInDim S64x128 ![0, 1] bcast_S64x1_S64x128_0_1 (broadcastInDim S64x1 ![0] bcast_S64_S64x1_0
      (maximumf
        (Host.scatterAdd scatter_S64_S10000x1_S10000_n_0_0_1
          (broadcastInDim S64 ![] bcast_S_S64 (constant S_ .f32 0x00000000#32))
          (broadcastInDim S10000x1 ![0] bcast_S10000_S10000x1_0 batch)
          (broadcastInDim S10000 ![] bcast_S_S10000 (constant S_ .f32 0x3F800000#32)))
        (broadcastInDim S64 ![] bcast_S_S64 (constant S_ .f32 0x3F800000#32)))))

/-- The node features after the three layers, in the edge form, as an array over `10000 × 128`. -/
def featR (x : FVec Ideal S10000x128 .f32) (ei : IVec S2x640000 32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) : FVec Ideal S10000x128 .f32 :=
  fun j => netEdges (srcOf ei) (dstOf ei) (fun e => wR ei (ix1 e)) (fun n => disR ei (ix1 n) * disR ei (ix1 n))
    (fun i k => x (ix2 i k)) (fun c k => W0 (ix2 c k)) (fun c k => W1 (ix2 c k)) (fun c k => W2 (ix2 c k))
    (fun k => b0 (ix1 k)) (fun k => b1 (ix1 k)) (fun k => b2 (ix1 k)) (j 0) (j 1)

/-! ## The edge table's rows, flattened -/

/-- Row 0 of the edge table as a vector: entry `e` is the table's entry `(0, e)`. -/
private theorem row0_at (ei : IVec S2x640000 32) (e : Fin 640000) :
    val_main_v1 (F := Ideal) ei (ix1 e) = ei (ix2 0 e) := by
  rw [val_main_v1_apply, val_main_v0_apply]
  refine congrArg ei (funext fun a => Fin.ext ?_)
  match a with
  | ⟨0, _⟩ => rfl
  | ⟨1, _⟩ => exact Nat.mod_eq_of_lt e.isLt

/-- Row 1 of the edge table as a vector: entry `e` is the table's entry `(1, e)`. -/
private theorem row1_at (ei : IVec S2x640000 32) (e : Fin 640000) :
    val_main_v3 (F := Ideal) ei (ix1 e) = ei (ix2 1 e) := by
  rw [val_main_v3_apply, val_main_v2_apply]
  refine congrArg ei (funext fun a => Fin.ext ?_)
  match a with
  | ⟨0, _⟩ => rfl
  | ⟨1, _⟩ => exact Nat.mod_eq_of_lt e.isLt

/-- A word that is not negative, read signed, is not below zero. -/
private theorem slt_zero_of_nonneg {a : BitVec 32} (h : 0 ≤ a.toInt) : IntOp.cmpi .slt a 0#32 = 0#1 := by
  have h0 : (0#32 : BitVec 32).toInt = 0 := by decide
  have hs : a.slt 0#32 = false := by
    simp only [BitVec.slt, h0, decide_eq_false_iff_not, not_lt]; exact h
  show BitVec.ofBool (a.slt 0#32) = 0#1
  rw [hs]; rfl

/-- Wrapping a negative source number around changes nothing in range: the normalised source is the entry. -/
private theorem src_norm {ei : IVec S2x640000 32} (hr : InRange ei) (e : Fin 640000) :
    val_main_v16 (F := Ideal) ei (ix1 e) = ei (ix2 0 e) := by
  rw [val_main_v16_apply, val_main_v13_apply, val_main_v12_apply, val_main_c_apply, row0_at,
    slt_zero_of_nonneg (hr 0 e).1, select_zero]

/-! ## Broadcasts read at an index -/

/-- A vector over the edges kept as a column reads, at `(e, 0)`, the vector at `e`. -/
private theorem ecol_at {α : Type} (v : S640000.Idx → α) (e : Fin 640000) :
    broadcastInDim S640000x1 ![0] bcast_S640000_S640000x1_0 v (ix2 e 0) = v (ix1 e) :=
  broadcastInDim_apply _ bcast_S640000_S640000x1_0 v (ix2 e 0) (ix1 e) (fun a => match a with
    | ⟨0, _⟩ => by show e.val = if (640000 : Nat) = 1 then 0 else e.val; rw [if_neg (by decide)])

/-- A vector over the edges laid along the rows of the `640000 × 128` rectangle reads, at `(e, k)`, the vector at `e`. -/
private theorem erows_at {α : Type} (v : S640000.Idx → α) (e : Fin 640000) (k : Fin 128) :
    broadcastInDim S640000x128 ![0, 1] bcast_S640000x1_S640000x128_0_1
      (broadcastInDim S640000x1 ![0] bcast_S640000_S640000x1_0 v) (ix2 e k) = v (ix1 e) := by
  rw [broadcastInDim_apply _ bcast_S640000x1_S640000x128_0_1 _ (ix2 e k) (ix2 e 0) (fun a => match a with
    | ⟨0, _⟩ => by show e.val = if (640000 : Nat) = 1 then 0 else e.val; rw [if_neg (by decide)]
    | ⟨1, _⟩ => by show 0 = if (1 : Nat) = 1 then 0 else k.val; rw [if_pos rfl])]
  exact ecol_at v e

/-- A vector over the nodes laid along the rows of the `10000 × 128` rectangle reads, at `(i, k)`, the vector at `i`. -/
private theorem nrows_at {α : Type} (v : S10000.Idx → α) (i : Fin 10000) (k : Fin 128) :
    broadcastInDim S10000x128 ![0, 1] bcast_S10000x1_S10000x128_0_1
      (broadcastInDim S10000x1 ![0] bcast_S10000_S10000x1_0 v) (ix2 i k) = v (ix1 i) := by
  rw [broadcastInDim_apply _ bcast_S10000x1_S10000x128_0_1 _ (ix2 i k) (ix2 i 0) (fun a => match a with
    | ⟨0, _⟩ => by show i.val = if (10000 : Nat) = 1 then 0 else i.val; rw [if_neg (by decide)]
    | ⟨1, _⟩ => by show 0 = if (1 : Nat) = 1 then 0 else k.val; rw [if_pos rfl])]
  exact broadcastInDim_apply _ bcast_S10000_S10000x1_0 v (ix2 i 0) (ix1 i) (fun a => match a with
    | ⟨0, _⟩ => by show i.val = if (10000 : Nat) = 1 then 0 else i.val; rw [if_neg (by decide)])

/-- A vector over the features laid down the columns of the `10000 × 128` rectangle reads, at `(i, k)`, the vector at `k`. -/
private theorem cols_at {α : Type} (b : S128.Idx → α) (i : Fin 10000) (k : Fin 128) :
    broadcastInDim S10000x128 ![0, 1] bcast_S1x128_S10000x128_0_1
      (broadcastInDim S1x128 ![1] bcast_S128_S1x128_1 b) (ix2 i k) = b (ix1 k) := by
  rw [broadcastInDim_apply _ bcast_S1x128_S10000x128_0_1 _ (ix2 i k) (ix2 0 k) (fun a => match a with
    | ⟨0, _⟩ => by show 0 = if (1 : Nat) = 1 then 0 else i.val; rw [if_pos rfl]
    | ⟨1, _⟩ => by show k.val = if (128 : Nat) = 1 then 0 else k.val; rw [if_neg (by decide)])]
  exact broadcastInDim_apply _ bcast_S128_S1x128_1 b (ix2 0 k) (ix1 k) (fun a => match a with
    | ⟨0, _⟩ => by show k.val = if (128 : Nat) = 1 then 0 else k.val; rw [if_neg (by decide)])

/-- The rectangle of zeros is zero everywhere. -/
private theorem zeros_at (j : S10000x128.Idx) :
    broadcastInDim S10000x128 ![] bcast_S_S10000x128 (constant (F := Ideal) S_ .f32 0x00000000#32) j = 0 := by
  rw [broadcastInDim_apply _ bcast_S_S10000x128 _ j (fun a => a.elim0) (fun a => a.elim0)]
  show Ideal.ofBits .f32 0x00000000#32 = 0
  exact Ideal.ofBits_zero_f32

/-! ## The gather of rows by source -/

/-- The gather reads, at `(e, k)`, row `src e` of its operand at column `k`: the start index is the edge's source
    entry, read signed; in range the clamp into `[0, 9999]` leaves it. -/
private theorem gather_rows {ei : IVec S2x640000 32} (hr : InRange ei) (idx : IVec S640000x1 32)
    (hidx : ∀ e : Fin 640000, idx (ix2 e 0) = ei (ix2 0 e))
    {α : Type} (h : S10000x128.Idx → α) (e : Fin 640000) (k : Fin 128) :
    Host.gather gather_S10000x128_S640000x1_S640000x128_1_0_n_n_0_1_1128 h idx (ix2 e k) = h (ix2 (srcOf ei e) k) := by
  unfold Host.gather
  refine congrArg h (funext fun a => Fin.ext ?_)
  have hn : ((srcOf ei e).val : Int) = (ei (ix2 0 e)).toInt := nodeOf_val hr 0 e
  have hlt : (srcOf ei e).val < 10000 := (srcOf ei e).isLt
  match a with
  | ⟨0, _⟩ =>
    show gather_S10000x128_S640000x1_S640000x128_1_0_n_n_0_1_1128.start (ix2 e k) idx 0
        + gather_S10000x128_S640000x1_S640000x128_1_0_n_n_0_1_1128.batchCoord (ix2 e k) 0
        + gather_S10000x128_S640000x1_S640000x128_1_0_n_n_0_1_1128.offCoord (ix2 e k) 0 = (srcOf ei e).val
    rw [GatherDims.batchCoord_eq_zero _ _ _ List.not_mem_nil,
      GatherDims.offCoord_eq_zero _ _ _ (fun hk => ((GatherDims.mem_sKept _ _).mp hk).1 (List.mem_singleton.mpr rfl))]
    unfold GatherDims.start
    rw [dif_pos (show (0 : Fin S10000x128.rank) ∈ gather_S10000x128_S640000x1_S640000x128_1_0_n_n_0_1_1128.startIndexMap
      from List.mem_singleton.mpr rfl)]
    have hsi : gather_S10000x128_S640000x1_S640000x128_1_0_n_n_0_1_1128.siIdx (ix2 e k)
        ⟨List.idxOf (0 : Fin S10000x128.rank) gather_S10000x128_S640000x1_S640000x128_1_0_n_n_0_1_1128.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi, hidx e]
    show min (ei (ix2 0 e)).toInt.toNat (10000 - 1) + 0 + 0 = (srcOf ei e).val
    omega
  | ⟨1, _⟩ =>
    show gather_S10000x128_S640000x1_S640000x128_1_0_n_n_0_1_1128.start (ix2 e k) idx 1
        + gather_S10000x128_S640000x1_S640000x128_1_0_n_n_0_1_1128.batchCoord (ix2 e k) 1
        + gather_S10000x128_S640000x1_S640000x128_1_0_n_n_0_1_1128.offCoord (ix2 e k) 1 = k.val
    rw [GatherDims.batchCoord_eq_zero _ _ _ List.not_mem_nil]
    unfold GatherDims.start GatherDims.offCoord
    rw [dif_neg (show ¬ (1 : Fin S10000x128.rank) ∈ gather_S10000x128_S640000x1_S640000x128_1_0_n_n_0_1_1128.startIndexMap by decide),
      dif_pos (show (1 : Fin S10000x128.rank) ∈ gather_S10000x128_S640000x1_S640000x128_1_0_n_n_0_1_1128.sKept by decide)]
    show 0 + 0 + k.val = k.val
    omega

/-! ## The scatter of rows by destination -/

/-- The update at `(e, k)` lands at `(dst e, k)`: the start is the edge's destination entry read signed (in range the
    node number itself), the window coordinate the column; both inside the operand. -/
private theorem scatter_lands {ei : IVec S2x640000 32} (hr : InRange ei) (idx : IVec S640000x1 32)
    (hidx : ∀ e : Fin 640000, idx (ix2 e 0) = ei (ix2 1 e)) (e : Fin 640000) (k : Fin 128) :
    scatter_S10000x128_S640000x1_S640000x128_1_0_0_1.resultIdx? (ix2 e k) idx = some (ix2 (dstOf ei e) k) := by
  have hn : ((dstOf ei e).val : Int) = (ei (ix2 1 e)).toInt := nodeOf_val hr 1 e
  have hlt : (dstOf ei e).val < 10000 := (dstOf ei e).isLt
  have hk : k.val < 128 := k.isLt
  have hs0 : scatter_S10000x128_S640000x1_S640000x128_1_0_0_1.start (ix2 e k) idx 0 = ((dstOf ei e).val : Int) := by
    unfold ScatterDims.start
    rw [dif_pos (show (0 : Fin S10000x128.rank) ∈ scatter_S10000x128_S640000x1_S640000x128_1_0_0_1.scatterDimsToOperandDims
      from List.mem_singleton.mpr rfl)]
    have hsi : scatter_S10000x128_S640000x1_S640000x128_1_0_0_1.siIdx (ix2 e k)
        ⟨List.idxOf (0 : Fin S10000x128.rank) scatter_S10000x128_S640000x1_S640000x128_1_0_0_1.scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi, hidx e, hn]
  have hs1 : scatter_S10000x128_S640000x1_S640000x128_1_0_0_1.start (ix2 e k) idx 1 = 0 := by
    unfold ScatterDims.start
    rw [dif_neg (show ¬ (1 : Fin S10000x128.rank) ∈ scatter_S10000x128_S640000x1_S640000x128_1_0_0_1.scatterDimsToOperandDims by decide)]
  have hw0 : scatter_S10000x128_S640000x1_S640000x128_1_0_0_1.window (ix2 e k) 0 = 0 := by
    unfold ScatterDims.window
    rw [dif_neg (show ¬ (0 : Fin S10000x128.rank) ∈ scatter_S10000x128_S640000x1_S640000x128_1_0_0_1.sKept by decide)]
  have hw1 : scatter_S10000x128_S640000x1_S640000x128_1_0_0_1.window (ix2 e k) 1 = k.val := by
    unfold ScatterDims.window
    rw [dif_pos (show (1 : Fin S10000x128.rank) ∈ scatter_S10000x128_S640000x1_S640000x128_1_0_0_1.sKept by decide)]
    rfl
  have hall : ∀ a : Fin S10000x128.rank,
      0 ≤ scatter_S10000x128_S640000x1_S640000x128_1_0_0_1.start (ix2 e k) idx a
          + scatter_S10000x128_S640000x1_S640000x128_1_0_0_1.window (ix2 e k) a
      ∧ scatter_S10000x128_S640000x1_S640000x128_1_0_0_1.start (ix2 e k) idx a
          + scatter_S10000x128_S640000x1_S640000x128_1_0_0_1.window (ix2 e k) a < S10000x128.size a := by
    intro a
    match a with
    | ⟨0, _⟩ =>
      show 0 ≤ scatter_S10000x128_S640000x1_S640000x128_1_0_0_1.start (ix2 e k) idx 0
            + (scatter_S10000x128_S640000x1_S640000x128_1_0_0_1.window (ix2 e k) 0 : Int)
        ∧ scatter_S10000x128_S640000x1_S640000x128_1_0_0_1.start (ix2 e k) idx 0
            + (scatter_S10000x128_S640000x1_S640000x128_1_0_0_1.window (ix2 e k) 0 : Int) < ((10000 : Nat) : Int)
      rw [hs0, hw0]; omega
    | ⟨1, _⟩ =>
      show 0 ≤ scatter_S10000x128_S640000x1_S640000x128_1_0_0_1.start (ix2 e k) idx 1
            + (scatter_S10000x128_S640000x1_S640000x128_1_0_0_1.window (ix2 e k) 1 : Int)
        ∧ scatter_S10000x128_S640000x1_S640000x128_1_0_0_1.start (ix2 e k) idx 1
            + (scatter_S10000x128_S640000x1_S640000x128_1_0_0_1.window (ix2 e k) 1 : Int) < ((128 : Nat) : Int)
      rw [hs1, hw1]; omega
  unfold ScatterDims.resultIdx?
  rw [dif_pos hall]
  refine congrArg some (funext fun a => Fin.ext ?_)
  match a with
  | ⟨0, _⟩ =>
    show (scatter_S10000x128_S640000x1_S640000x128_1_0_0_1.start (ix2 e k) idx 0
      + (scatter_S10000x128_S640000x1_S640000x128_1_0_0_1.window (ix2 e k) 0 : Int)).toNat = (dstOf ei e).val
    rw [hs0, hw0]; omega
  | ⟨1, _⟩ =>
    show (scatter_S10000x128_S640000x1_S640000x128_1_0_0_1.start (ix2 e k) idx 1
      + (scatter_S10000x128_S640000x1_S640000x128_1_0_0_1.window (ix2 e k) 1 : Int)).toNat = k.val
    rw [hs1, hw1]; omega

/-- The scatter-add reads, at `(i, k)`, the operand there plus the sum over the edges into `i` of the update's
    row at column `k`. -/
private theorem scatter_rows {ei : IVec S2x640000 32} (hr : InRange ei) (idx : IVec S640000x1 32)
    (hidx : ∀ e : Fin 640000, idx (ix2 e 0) = ei (ix2 1 e))
    (z : FVec Ideal S10000x128 .f32) (upd : FVec Ideal S640000x128 .f32) (i : Fin 10000) (k : Fin 128) :
    Host.scatterAdd scatter_S10000x128_S640000x1_S640000x128_1_0_0_1 z idx upd (ix2 i k)
      = z (ix2 i k) + ∑ e ∈ Finset.univ.filter (fun e : Fin 640000 => dstOf ei e = i), upd (ix2 e k) := by
  have hdef : Host.scatterAdd scatter_S10000x128_S640000x1_S640000x128_1_0_0_1 z idx upd (ix2 i k)
      = Ideal.hostScatterAdd scatter_S10000x128_S640000x1_S640000x128_1_0_0_1 z idx upd (ix2 i k) := rfl
  rw [hdef]
  unfold Ideal.hostScatterAdd
  refine congrArg (fun t => z (ix2 i k) + t) ?_
  rw [Finset.sum_filter, sum_idx2, Finset.sum_filter]
  refine Finset.sum_congr rfl fun e _ => ?_
  simp only [scatter_lands hr idx hidx]
  by_cases h : dstOf ei e = i
  · rw [if_pos h, Finset.sum_eq_single k]
    · rw [if_pos (by rw [h])]
    · intro k' _ hk'
      exact if_neg fun hEq => hk' (congrFun (Option.some.inj hEq) 1)
    · intro h'; exact absurd (Finset.mem_univ k) h'
  · rw [if_neg h]
    exact Finset.sum_eq_zero fun k' _ => if_neg fun hEq => h (congrFun (Option.some.inj hEq) 0)

/-! ## One layer -/

/-- The feature map: the product of the input rectangle with the weight matrix, read at `(i, k)`. -/
private theorem lin_at (inp : FVec Ideal S10000x128 .f32) (W : FVec Ideal S128x128 .f32) (i : Fin 10000) (k : Fin 128) :
    Host.dotGeneral (F := Ideal) dot_S10000x128_S128x128_S10000x128_1_0_0_1_n_n none inp W (ix2 i k)
      = lin (fun i c => inp (ix2 i c)) (fun c k => W (ix2 c k)) i k := by
  have h := val_main_v4_apply inp W (ix2 i k)
  unfold val_main_v4 at h
  rw [h]
  unfold lin
  refine Finset.sum_congr rfl fun c _ => ?_
  have el : lidx_main_v4 (ix2 i k) c = ix2 i c :=
    funext fun a => Fin.ext (by match a with | ⟨0, _⟩ => rfl | ⟨1, _⟩ => rfl)
  have er : ridx_main_v4 (ix2 i k) c = ix2 c k :=
    funext fun a => Fin.ext (by match a with | ⟨0, _⟩ => rfl | ⟨1, _⟩ => rfl)
  rw [el, er]

/-- One layer as the reference spells it, over its input rectangle, weight matrix and bias: the feature map
    `h`, its rows gathered by source and weighted per edge, summed by destination into zeros, plus `h`
    weighted per node, plus the bias along the columns. -/
private def layerR (ei : IVec S2x640000 32) (inp : FVec Ideal S10000x128 .f32) (W : FVec Ideal S128x128 .f32)
    (b : FVec Ideal S128 .f32) : FVec Ideal S10000x128 .f32 :=
  addf
    (addf
      (Host.scatterAdd scatter_S10000x128_S640000x1_S640000x128_1_0_0_1
        (broadcastInDim S10000x128 ![] bcast_S_S10000x128 (constant (F := Ideal) S_ .f32 0x00000000#32))
        (broadcastInDim S640000x1 ![0] bcast_S640000_S640000x1_0 (val_main_v3 (F := Ideal) ei))
        (mulf
          (Host.gather gather_S10000x128_S640000x1_S640000x128_1_0_n_n_0_1_1128
            (Host.dotGeneral (F := Ideal) dot_S10000x128_S128x128_S10000x128_1_0_0_1_n_n none inp W)
            (broadcastInDim S640000x1 ![0] bcast_S640000_S640000x1_0 (val_main_v16 (F := Ideal) ei)))
          (broadcastInDim S640000x128 ![0, 1] bcast_S640000x1_S640000x128_0_1
            (broadcastInDim S640000x1 ![0] bcast_S640000_S640000x1_0 (wR ei)))))
      (mulf (Host.dotGeneral (F := Ideal) dot_S10000x128_S128x128_S10000x128_1_0_0_1_n_n none inp W)
        (broadcastInDim S10000x128 ![0, 1] bcast_S10000x1_S10000x128_0_1
          (broadcastInDim S10000x1 ![0] bcast_S10000_S10000x1_0 (mulf (disR ei) (disR ei))))))
    (broadcastInDim S10000x128 ![0, 1] bcast_S1x128_S10000x128_0_1 (broadcastInDim S1x128 ![1] bcast_S128_S1x128_1 b))

/-- A layer of the reference is the edge-form aggregate of the feature map, under the range hypothesis. -/
private theorem layerR_at {ei : IVec S2x640000 32} (hr : InRange ei) (inp : FVec Ideal S10000x128 .f32)
    (W : FVec Ideal S128x128 .f32) (b : FVec Ideal S128 .f32) (i : Fin 10000) (k : Fin 128) :
    layerR ei inp W b (ix2 i k)
      = aggEdges (srcOf ei) (dstOf ei) (fun e => wR ei (ix1 e)) (fun n => disR ei (ix1 n) * disR ei (ix1 n))
          (lin (fun i c => inp (ix2 i c)) (fun c k => W (ix2 c k))) (fun k => b (ix1 k)) i k := by
  unfold layerR aggEdges
  rw [addf_apply, addf_apply, cols_at, mulf_apply, nrows_at, mulf_apply, lin_at,
    scatter_rows hr _ (fun e => (ecol_at _ e).trans (row1_at ei e)), zeros_at, zero_add]
  refine congrArg₂ (· + ·) (congrArg₂ (· + ·) (Finset.sum_congr rfl fun e _ => ?_) rfl) rfl
  rw [mulf_apply, erows_at, gather_rows hr _ (fun e => (ecol_at _ e).trans (src_norm hr e)), lin_at]

/-! ## The three layers -/

/-- The positive part as the reference spells it (the larger of the value and a rectangle of zeros). -/
private theorem relu_at (v : FVec Ideal S10000x128 .f32) (j : S10000x128.Idx) :
    maximumf v (broadcastInDim S10000x128 ![] bcast_S_S10000x128 (constant (F := Ideal) S_ .f32 0x00000000#32)) j = relu (v j) := by
  rw [maximumf_apply, zeros_at]; rfl

private theorem layer1_eq (x : FVec Ideal S10000x128 .f32) (ei : IVec S2x640000 32)
    (W0 : FVec Ideal S128x128 .f32) (b0 : FVec Ideal S128 .f32) :
    val_main_v47 (F := Ideal) x ei W0 b0 = layerR ei x W0 b0 := rfl

private theorem layer2_eq (x : FVec Ideal S10000x128 .f32) (ei : IVec S2x640000 32)
    (W0 : FVec Ideal S128x128 .f32) (b0 : FVec Ideal S128 .f32) (W1 : FVec Ideal S128x128 .f32) (b1 : FVec Ideal S128 .f32) :
    val_main_v92 (F := Ideal) x ei W0 b0 W1 b1 = layerR ei (val_main_v48 (F := Ideal) x ei W0 b0) W1 b1 := rfl

private theorem layer3_eq (x : FVec Ideal S10000x128 .f32) (ei : IVec S2x640000 32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) :
    val_main_v137 (F := Ideal) x ei W0 b0 W1 b1 W2 b2 = layerR ei (val_main_v93 (F := Ideal) x ei W0 b0 W1 b1) W2 b2 := rfl

/-- The reference's result is the mean pool of the edge-form network. -/
theorem ref_value (x : FVec Ideal S10000x128 .f32) (ei : IVec S2x640000 32) (batch : IVec S10000 32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (hr : InRange ei) :
    val_main_v149 (F := Ideal) x ei batch W0 b0 W1 b1 W2 b2 = poolR (featR x ei W0 b0 W1 b1 W2 b2) batch := by
  -- the tail of the program is the pool of the third layer's result
  have htail : val_main_v149 (F := Ideal) x ei batch W0 b0 W1 b1 W2 b2
      = poolR (val_main_v137 (F := Ideal) x ei W0 b0 W1 b1 W2 b2) batch := rfl
  rw [htail]
  refine congrArg (fun t => poolR t batch) (funext fun j => ?_)
  obtain ⟨i, k, rfl⟩ : ∃ (i : Fin 10000) (k : Fin 128), j = ix2 i k := ⟨j 0, j 1, eq_ix2 j⟩
  -- the first layer, then the positive part
  have h1 : ∀ (i : Fin 10000) (k : Fin 128), val_main_v48 (F := Ideal) x ei W0 b0 (ix2 i k)
      = relu (aggEdges (srcOf ei) (dstOf ei) (fun e => wR ei (ix1 e)) (fun n => disR ei (ix1 n) * disR ei (ix1 n))
          (lin (fun i c => x (ix2 i c)) (fun c k => W0 (ix2 c k))) (fun k => b0 (ix1 k)) i k) := by
    intro i k
    have hdef : val_main_v48 (F := Ideal) x ei W0 b0 = maximumf (val_main_v47 (F := Ideal) x ei W0 b0)
        (broadcastInDim S10000x128 ![] bcast_S_S10000x128 (constant (F := Ideal) S_ .f32 0x00000000#32)) := rfl
    rw [hdef, relu_at, layer1_eq, layerR_at hr]
  have hX1 : (fun (i : Fin 10000) (c : Fin 128) => val_main_v48 (F := Ideal) x ei W0 b0 (ix2 i c))
      = fun i k => relu (aggEdges (srcOf ei) (dstOf ei) (fun e => wR ei (ix1 e)) (fun n => disR ei (ix1 n) * disR ei (ix1 n))
          (lin (fun i c => x (ix2 i c)) (fun c k => W0 (ix2 c k))) (fun k => b0 (ix1 k)) i k) :=
    funext fun i => funext fun c => h1 i c
  -- the second layer, then the positive part
  have h2 : ∀ (i : Fin 10000) (k : Fin 128), val_main_v93 (F := Ideal) x ei W0 b0 W1 b1 (ix2 i k)
      = relu (aggEdges (srcOf ei) (dstOf ei) (fun e => wR ei (ix1 e)) (fun n => disR ei (ix1 n) * disR ei (ix1 n))
          (lin (fun i k => relu (aggEdges (srcOf ei) (dstOf ei) (fun e => wR ei (ix1 e)) (fun n => disR ei (ix1 n) * disR ei (ix1 n))
              (lin (fun i c => x (ix2 i c)) (fun c k => W0 (ix2 c k))) (fun k => b0 (ix1 k)) i k))
            (fun c k => W1 (ix2 c k))) (fun k => b1 (ix1 k)) i k) := by
    intro i k
    have hdef : val_main_v93 (F := Ideal) x ei W0 b0 W1 b1 = maximumf (val_main_v92 (F := Ideal) x ei W0 b0 W1 b1)
        (broadcastInDim S10000x128 ![] bcast_S_S10000x128 (constant (F := Ideal) S_ .f32 0x00000000#32)) := rfl
    rw [hdef, relu_at, layer2_eq, layerR_at hr, hX1]
  have hX2 : (fun (i : Fin 10000) (c : Fin 128) => val_main_v93 (F := Ideal) x ei W0 b0 W1 b1 (ix2 i c))
      = fun i k => relu (aggEdges (srcOf ei) (dstOf ei) (fun e => wR ei (ix1 e)) (fun n => disR ei (ix1 n) * disR ei (ix1 n))
          (lin (fun i k => relu (aggEdges (srcOf ei) (dstOf ei) (fun e => wR ei (ix1 e)) (fun n => disR ei (ix1 n) * disR ei (ix1 n))
              (lin (fun i c => x (ix2 i c)) (fun c k => W0 (ix2 c k))) (fun k => b0 (ix1 k)) i k))
            (fun c k => W1 (ix2 c k))) (fun k => b1 (ix1 k)) i k) :=
    funext fun i => funext fun c => h2 i c
  -- the third layer
  rw [layer3_eq, layerR_at hr, hX2]
  rfl

end Cert.RefValue

end
-- ==== Proof.KGlue.lean ====
import proofs.«405046_j44195213476075_1_alg».proof.Proof.Gen.KernelIdeal.Frame
import proofs.«405046_j44195213476075_1_alg».proof.Proof.KBack
import proofs.«405046_j44195213476075_1_alg».proof.Proof.KLin0
import proofs.«405046_j44195213476075_1_alg».proof.Proof.KLin2
import proofs.«405046_j44195213476075_1_alg».proof.Proof.KLin4
import proofs.«405046_j44195213476075_1_alg».proof.Proof.KAgg1
import proofs.«405046_j44195213476075_1_alg».proof.Proof.KAgg3
import proofs.«405046_j44195213476075_1_alg».proof.Proof.KAgg5
import proofs.«405046_j44195213476075_1_alg».proof.Proof.KHostA
import proofs.«405046_j44195213476075_1_alg».proof.Proof.RefValue
import Idealize.ShloMosaic.Lib.StableHlo.Run
import Idealize.ShloMosaic.Lib.Pipeline.Value
import Idealize.ShloMosaic.Lib.ValueIdx
import Idealize.ShloMosaic.Lib.KernelVsHost

/-!
  The idealized kernel's result, as one function of its arguments.

  Between the launch and the return the buffers' contents are a fold: a host stretch applies its operations, a region
  leaves its output array at its function of its input arrays as entered and every other buffer alone.  Reading the
  result buffer back through that fold, stretch by stretch and region by region, gives: the mean pool (the reference's
  own operations, by the graph ids) of the first 10000 rows of the three-layer network in its DENSE form (Spec),
  applied to the padded features, with the dense weight matrix the first stretch builds.
  A buffer is read back to where it was written by the equations of the table beside this module.
-/

set_option maxRecDepth 16384

noncomputable section

namespace Cert.KernelIdeal.KGlue

open Cert.KernelIdeal Cert.KernelIdeal.Gen Idealize.ShloMosaic Idealize.ShloMosaic.TcCoe Idealize.ShloMosaic.ValueIdx
open Idealize.ShloMosaic.StableHlo Idealize.SL.Sem
open Cert.Gcn Cert.Decode Cert.RefReal Cert.RefValue

/-! ## The host stretches, read -/

/-- The first 10000 rows of a 10112-row array, read at an index. -/
theorem rows_apply (x : S10112x128.Idx → EReal) (j : S10000x128.Idx) :
    extractStridedSlice S10000x128 ![0, 0] x slices_S10112x128_S10000x128_0_0 j = x (ix2 (pad (j 0)) (j 1)) :=
  extractStridedSlice_apply ![0, 0] x slices_S10112x128_S10000x128_0_0 j (ix2 (pad (j 0)) (j 1)) (fun a => match a with
    | ⟨0, _⟩ => by show (j 0).val = 0 + (j 0).val; omega
    | ⟨1, _⟩ => by show (j 1).val = 0 + (j 1).val; omega)

set_option maxHeartbeats 8000000 in
/-- The last stretch: the result is the mean pool (the reference's own operations) of the first 10000 rows of the
    last region's output, by the graph ids. -/
theorem tail_read (W : Valuation τ sig (Elt Ideal)) :
    StableHlo.after (hostOps6 (F := Ideal)) W (Proc.devRef .tc main_v80)
      = poolR (extractStridedSlice S10000x128 ![0, 0] (W (Proc.devRef .tc main_v67)) slices_S10112x128_S10000x128_0_0)
          (W (Proc.devRef .tc main_arg2)) := by
  after_results_simp
  rfl

/-- The second stretch pads the features with 112 rows below: a node's row of the padded array is its row of the
    operand. -/
theorem pad_read (W : Valuation τ sig (Elt Ideal)) (i : Fin 10000) (k : Fin 128) :
    (StableHlo.after (hostOps0_1 (F := Ideal)) W (Proc.devRef .tc main_v58) : S10112x128.Idx → EReal) (ix2 (pad i) k)
      = (W (Proc.devRef .tc main_arg0) : S10000x128.Idx → EReal) (ix2 i k) := by
  after_results
  exact pad_apply_of_inside ![0, 0] ![112, 0] ![0, 0] _ _ pads_S10000x128_S10112x128_01120_000 h_S_ (ix2 (pad i) k) (ix2 i k)
    (fun a => match a with
      | ⟨0, _⟩ => by show i.val = 0 + i.val * (0 + 1); omega
      | ⟨1, _⟩ => by show k.val = 0 + k.val * (0 + 1); omega)

/-- The stretch before region 1 lays a bias vector out as one row. -/
theorem bias1_read (W : Valuation τ sig (Elt Ideal)) (k : Fin 128) :
    (StableHlo.after (hostOps1 (F := Ideal)) W (Proc.devRef .tc main_v60) : S1x128.Idx → EReal) (ix2 (0 : Fin 1) k)
      = (W (Proc.devRef .tc main_arg4) : S128.Idx → EReal) (ix1 k) := by
  after_results
  exact shapeCast_apply _ shapeCasts_S128_S1x128 (ix2 (0 : Fin 1) k) (ix1 k)
    (by rewrite [Shape.rowMajor_val_two, Shape.rowMajor_val_one]; show k.val = 0 * 128 + k.val; omega)

/-- The stretch before region 3 lays a bias vector out as one row. -/
theorem bias3_read (W : Valuation τ sig (Elt Ideal)) (k : Fin 128) :
    (StableHlo.after (hostOps3 (F := Ideal)) W (Proc.devRef .tc main_v63) : S1x128.Idx → EReal) (ix2 (0 : Fin 1) k)
      = (W (Proc.devRef .tc main_arg6) : S128.Idx → EReal) (ix1 k) := by
  after_results
  exact shapeCast_apply _ shapeCasts_S128_S1x128 (ix2 (0 : Fin 1) k) (ix1 k)
    (by rewrite [Shape.rowMajor_val_two, Shape.rowMajor_val_one]; show k.val = 0 * 128 + k.val; omega)

/-- The stretch before region 5 lays a bias vector out as one row. -/
theorem bias5_read (W : Valuation τ sig (Elt Ideal)) (k : Fin 128) :
    (StableHlo.after (hostOps5 (F := Ideal)) W (Proc.devRef .tc main_v66) : S1x128.Idx → EReal) (ix2 (0 : Fin 1) k)
      = (W (Proc.devRef .tc main_arg8) : S128.Idx → EReal) (ix1 k) := by
  after_results
  exact shapeCast_apply _ shapeCasts_S128_S1x128 (ix2 (0 : Fin 1) k) (ix1 k)
    (by rewrite [Shape.rowMajor_val_two, Shape.rowMajor_val_one]; show k.val = 0 * 128 + k.val; omega)

variable (m : (ℓ : Loc nD τ sig) → Buf (Elt Ideal) ℓ) (ρ : Dev nD → PrngReg)

/-! ## The arguments as launched, and the arrays of the network in its dense form -/

/-- The edge table as launched. -/
abbrev aEi (c : Dev nD) : IVec (⟨2, ![2, 640000]⟩ : Shape) 32 := m ((c : Thread nD τ).loc main_arg1)
/-- The graph ids as launched. -/
abbrev aBatch (c : Dev nD) : IVec S10000 32 := m ((c : Thread nD τ).loc main_arg2)
/-- The three weight matrices and bias vectors as launched, as plain functions of their coordinates. -/
abbrev mW0 (c : Dev nD) : Fin 128 → Fin 128 → EReal := fun i k => (m ((c : Thread nD τ).loc main_arg3) : S128x128.Idx → EReal) (ix2 i k)
abbrev mB0 (c : Dev nD) : Fin 128 → EReal := fun k => (m ((c : Thread nD τ).loc main_arg4) : S128.Idx → EReal) (ix1 k)
abbrev mW1 (c : Dev nD) : Fin 128 → Fin 128 → EReal := fun i k => (m ((c : Thread nD τ).loc main_arg5) : S128x128.Idx → EReal) (ix2 i k)
abbrev mB1 (c : Dev nD) : Fin 128 → EReal := fun k => (m ((c : Thread nD τ).loc main_arg6) : S128.Idx → EReal) (ix1 k)
abbrev mW2 (c : Dev nD) : Fin 128 → Fin 128 → EReal := fun i k => (m ((c : Thread nD τ).loc main_arg7) : S128x128.Idx → EReal) (ix2 i k)
abbrev mB2 (c : Dev nD) : Fin 128 → EReal := fun k => (m ((c : Thread nD τ).loc main_arg8) : S128.Idx → EReal) (ix1 k)

/-- The weight matrix the first stretch leaves. -/
def Am (c : Dev nD) : Fin 10112 → Fin 10112 → EReal :=
  fun i j => (W1 m ρ c (Proc.devRef .tc main_v57) : S10112x10112.Idx → EReal) (ix2 i j)
/-- The padded features the second stretch leaves. -/
def X0 (c : Dev nD) : Fin 10112 → Fin 128 → EReal :=
  fun i k => (W2 m ρ c (Proc.devRef .tc main_v58) : S10112x128.Idx → EReal) (ix2 i k)
/-- The arrays of the three layers, in the dense form. -/
def H0 (c : Dev nD) : Fin 10112 → Fin 128 → EReal := lin (X0 m ρ c) (mW0 m c)
def X1 (c : Dev nD) : Fin 10112 → Fin 128 → EReal := fun i k => relu (aggDense (Am m ρ c) (H0 m ρ c) (mB0 m c) i k)
def H1 (c : Dev nD) : Fin 10112 → Fin 128 → EReal := lin (X1 m ρ c) (mW1 m c)
def X2 (c : Dev nD) : Fin 10112 → Fin 128 → EReal := fun i k => relu (aggDense (Am m ρ c) (H1 m ρ c) (mB1 m c) i k)
def H2 (c : Dev nD) : Fin 10112 → Fin 128 → EReal := lin (X2 m ρ c) (mW2 m c)
def X3 (c : Dev nD) : Fin 10112 → Fin 128 → EReal := aggDense (Am m ρ c) (H2 m ρ c) (mB2 m c)

theorem X3_eq (c : Dev nD) :
    X3 m ρ c = netDense (Am m ρ c) (X0 m ρ c) (mW0 m c) (mW1 m c) (mW2 m c) (mB0 m c) (mB1 m c) (mB2 m c) := rfl

/-! ## The regions' outputs, read back -/

/-- After region 0 the output buffer holds `H0`. -/
theorem r0 (c : Dev nD) :
    (W3 m ρ c (Proc.devRef .tc main_v59) : S10112x128.Idx → EReal) = fun j => H0 m ρ c (j 0) (j 1) := by
  have e := (W3_arr m ρ c 2).trans (KLin0.arr (V2 m ρ) c)
  have hX : (fun (i : Fin 10112) (k : Fin 128) => KLin0.xin (V2 m ρ) c (ix2 i k)) = X0 m ρ c := by
    funext i k
    exact rfl
  have hW : (fun (i : Fin 128) (k : Fin 128) => KLin0.win (V2 m ρ) c (ix2 i k)) = mW0 m c := by
    funext i k
    exact congrFun (KBack.main_arg3_2_0 m ρ c) (ix2 i k)
  rw [hX, hW] at e
  exact e

/-- After region 1 the output buffer holds `X1`. -/
theorem r1 (c : Dev nD) :
    (W5 m ρ c (Proc.devRef .tc main_v61) : S10112x128.Idx → EReal) = fun j => X1 m ρ c (j 0) (j 1) := by
  have e := (W5_arr m ρ c 3).trans (KAgg1.arr (V4 m ρ) c)
  have hA : (fun (i : Fin 10112) (j' : Fin 10112) => KAgg1.ain (V4 m ρ) c (ix2 i j')) = Am m ρ c := by
    funext i j'
    exact congrFun (KBack.main_v57_4_1 m ρ c) (ix2 i j')
  have hH : (fun (j' : Fin 10112) (k : Fin 128) => KAgg1.hin (V4 m ρ) c (ix2 j' k)) = H0 m ρ c := by
    funext j' k
    exact (congrFun (KBack.main_v59_4_3 m ρ c) (ix2 j' k)).trans (congrFun (r0 m ρ c) (ix2 j' k))
  have hB : (fun (k : Fin 128) => KAgg1.bin (V4 m ρ) c (ix2 (0 : Fin 1) k)) = mB0 m c := by
    funext k
    exact (bias1_read (W3 m ρ c) k).trans (congrFun (KBack.main_arg4_3_0 m ρ c) (ix1 k))
  rw [hA, hH, hB] at e
  exact e

/-- After region 2 the output buffer holds `H1`. -/
theorem r2 (c : Dev nD) :
    (W6 m ρ c (Proc.devRef .tc main_v62) : S10112x128.Idx → EReal) = fun j => H1 m ρ c (j 0) (j 1) := by
  have e := (W6_arr m ρ c 2).trans (KLin2.arr (V5 m ρ) c)
  have hX : (fun (i : Fin 10112) (k : Fin 128) => KLin2.xin (V5 m ρ) c (ix2 i k)) = X1 m ρ c := by
    funext i k
    exact congrFun (r1 m ρ c) (ix2 i k)
  have hW : (fun (i : Fin 128) (k : Fin 128) => KLin2.win (V5 m ρ) c (ix2 i k)) = mW1 m c := by
    funext i k
    exact congrFun (KBack.main_arg5_5_0 m ρ c) (ix2 i k)
  rw [hX, hW] at e
  exact e

/-- After region 3 the output buffer holds `X2`. -/
theorem r3 (c : Dev nD) :
    (W8 m ρ c (Proc.devRef .tc main_v64) : S10112x128.Idx → EReal) = fun j => X2 m ρ c (j 0) (j 1) := by
  have e := (W8_arr m ρ c 3).trans (KAgg3.arr (V7 m ρ) c)
  have hA : (fun (i : Fin 10112) (j' : Fin 10112) => KAgg3.ain (V7 m ρ) c (ix2 i j')) = Am m ρ c := by
    funext i j'
    exact congrFun (KBack.main_v57_7_1 m ρ c) (ix2 i j')
  have hH : (fun (j' : Fin 10112) (k : Fin 128) => KAgg3.hin (V7 m ρ) c (ix2 j' k)) = H1 m ρ c := by
    funext j' k
    exact (congrFun (KBack.main_v62_7_6 m ρ c) (ix2 j' k)).trans (congrFun (r2 m ρ c) (ix2 j' k))
  have hB : (fun (k : Fin 128) => KAgg3.bin (V7 m ρ) c (ix2 (0 : Fin 1) k)) = mB1 m c := by
    funext k
    exact (bias3_read (W6 m ρ c) k).trans (congrFun (KBack.main_arg6_6_0 m ρ c) (ix1 k))
  rw [hA, hH, hB] at e
  exact e

/-- After region 4 the output buffer holds `H2`. -/
theorem r4 (c : Dev nD) :
    (W9 m ρ c (Proc.devRef .tc main_v65) : S10112x128.Idx → EReal) = fun j => H2 m ρ c (j 0) (j 1) := by
  have e := (W9_arr m ρ c 2).trans (KLin4.arr (V8 m ρ) c)
  have hX : (fun (i : Fin 10112) (k : Fin 128) => KLin4.xin (V8 m ρ) c (ix2 i k)) = X2 m ρ c := by
    funext i k
    exact congrFun (r3 m ρ c) (ix2 i k)
  have hW : (fun (i : Fin 128) (k : Fin 128) => KLin4.win (V8 m ρ) c (ix2 i k)) = mW2 m c := by
    funext i k
    exact congrFun (KBack.main_arg7_8_0 m ρ c) (ix2 i k)
  rw [hX, hW] at e
  exact e

/-- After region 5 the output buffer holds `X3`. -/
theorem r5 (c : Dev nD) :
    (W11 m ρ c (Proc.devRef .tc main_v67) : S10112x128.Idx → EReal) = fun j => X3 m ρ c (j 0) (j 1) := by
  have e := (W11_arr m ρ c 3).trans (KAgg5.arr (V10 m ρ) c)
  have hA : (fun (i : Fin 10112) (j' : Fin 10112) => KAgg5.ain (V10 m ρ) c (ix2 i j')) = Am m ρ c := by
    funext i j'
    exact congrFun (KBack.main_v57_10_1 m ρ c) (ix2 i j')
  have hH : (fun (j' : Fin 10112) (k : Fin 128) => KAgg5.hin (V10 m ρ) c (ix2 j' k)) = H2 m ρ c := by
    funext j' k
    exact (congrFun (KBack.main_v65_10_9 m ρ c) (ix2 j' k)).trans (congrFun (r4 m ρ c) (ix2 j' k))
  have hB : (fun (k : Fin 128) => KAgg5.bin (V10 m ρ) c (ix2 (0 : Fin 1) k)) = mB2 m c := by
    funext k
    exact (bias5_read (W9 m ρ c) k).trans (congrFun (KBack.main_arg8_9_0 m ρ c) (ix1 k))
  rw [hA, hH, hB] at e
  exact e

/-! ## The padded features -/

/-- A node's row of the padded features is its row of the features as launched. -/
theorem X0_pad (c : Dev nD) (i : Fin 10000) (k : Fin 128) :
    X0 m ρ c (pad i) k = (m ((c : Thread nD τ).loc main_arg0) : S10000x128.Idx → EReal) (ix2 i k) :=
  (pad_read (W1 m ρ c) i k).trans (congrFun (KBack.main_arg0_1_0 m ρ c) (ix2 i k))

/-! ## The result -/

/-- The idealized kernel's result buffer at the last boundary: the mean pool of the first 10000 rows of the dense
    network's output. -/
theorem result_read (c : Dev nD) :
    W12 m ρ c (Proc.devRef .tc main_v80)
      = poolR (fun j => netDense (Am m ρ c) (X0 m ρ c) (mW0 m c) (mW1 m c) (mW2 m c) (mB0 m c) (mB1 m c) (mB2 m c)
          (pad (j 0)) (j 1)) (aBatch m c) := by
  refine (tail_read (W11 m ρ c)).trans ?_
  have hb : (W11 m ρ c (Proc.devRef .tc main_arg2) : IVec S10000 32) = aBatch m c := (KBack.main_arg2_11_0 m ρ c)
  have hx : extractStridedSlice S10000x128 ![0, 0] (W11 m ρ c (Proc.devRef .tc main_v67)) slices_S10112x128_S10000x128_0_0
      = fun j => netDense (Am m ρ c) (X0 m ρ c) (mW0 m c) (mW1 m c) (mW2 m c) (mB0 m c) (mB1 m c) (mB2 m c) (pad (j 0)) (j 1) := by
    funext j
    rw [rows_apply, r5 m ρ c, ← X3_eq]
    rfl
  rw [hb, hx]

end Cert.KernelIdeal.KGlue

end
-- ==== Proof.lean ====
/- The certificate of a three-layer graph convolution with a mean pool, computed two ways.

   The reference aggregates edge by edge: per layer it multiplies the features by a weight matrix, gathers each edge's
   source row, scales it by the edge's weight (the product of the endpoints' inverse-square-root degrees), sums the
   rows into their destinations, adds each node's own row times its squared inverse-square-root degree and a bias, and
   takes the positive part after the first two layers; then it averages the nodes' rows per graph.
   The kernel first sums the same weights into ONE dense matrix over a range padded from 10000 to 10112 (edge weights
   at (destination, source), the self-loop weights on the diagonal) and runs each layer as two tiled matrix products
   on the padded features, then pools the first 10000 rows by the same operations.

   At the exact instance the two agree whenever every entry of the edge table is a node number (the precondition's
   added conjunct; outside it a gather clamps where a scatter drops, and the two programs differ): the product with the
   dense matrix distributes over the sum of an entry's edge weights, which needs the entries to be real numbers — they
   are: the float arguments are finite by the precondition, a degree is at least one, and sums, products and positive
   parts of reals are real — and regrouping a destination's edges by their source is a reindexing of one finite sum;
   the padded columns of the matrix are zero, so what the padded rows hold never matters.

   The modules: Spec (the two forms and the law between them), Decode (the precondition), RefReal (the weights are
   real), RefValue (the reference's result is the pool of the edge form), KLin* / KAgg* (what each of the kernel's six
   regions leaves), KHostA (the dense matrix), KBack and KGlue (the kernel's result is the pool of the dense form),
   KRun (the kernel's run names its result). -/
import proofs.«405046_j44195213476075_1_alg».proof.Defs
import proofs.«405046_j44195213476075_1_alg».proof.Proof.Gen.Kernel
import proofs.«405046_j44195213476075_1_alg».proof.Proof.Gen.Kernel.Skeleton
import proofs.«405046_j44195213476075_1_alg».proof.Proof.Gen.Kernel.Launch
import proofs.«405046_j44195213476075_1_alg».proof.Proof.Gen.Kernel.Points
import proofs.«405046_j44195213476075_1_alg».proof.Proof.Gen.Kernel.Frame
import proofs.«405046_j44195213476075_1_alg».proof.Proof.Gen.KernelIdeal
import proofs.«405046_j44195213476075_1_alg».proof.Proof.Gen.KernelIdeal.Skeleton
import proofs.«405046_j44195213476075_1_alg».proof.Proof.Gen.KernelIdeal.Launch
import proofs.«405046_j44195213476075_1_alg».proof.Proof.Gen.KernelIdeal.Points
import proofs.«405046_j44195213476075_1_alg».proof.Proof.Gen.KernelIdeal.Frame
import proofs.«405046_j44195213476075_1_alg».proof.Proof.Gen.ReferenceIdeal
import proofs.«405046_j44195213476075_1_alg».proof.Proof.Gen.ReferenceIdeal.Run
import proofs.«405046_j44195213476075_1_alg».proof.Proof.Gen.ReferenceIdeal.Read
import proofs.«405046_j44195213476075_1_alg».proof.Proof.Gen.Pre_finite_inputs
import proofs.«405046_j44195213476075_1_alg».proof.Proof.KRun
import proofs.«405046_j44195213476075_1_alg».proof.Proof.KGlue
import proofs.«405046_j44195213476075_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Gcn Cert.Decode Cert.LibReal Cert.RefReal Cert.RefValue

/-! ## The frames and the idealization -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## The two results -/

/-- Under the precondition the kernel's result is the mean pool of the EDGE form of the network: the dense form it
    computes agrees with the edge form on the nodes' rows (Spec), every entry being real. -/
theorem kernel_result (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W12 m ρ c (Proc.devRef .tc Cert.KernelIdeal.main_v80)
      = poolR (featR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)) := by
  obtain ⟨hx, hr, hW0, hb0, hW1, hb1, hW2, hb2⟩ := Cert.Decode.of_pre _ _ _ _ _ _ _ _ _ (hpre c)
  rw [Cert.KernelIdeal.KGlue.result_read m ρ c]
  have hA : Cert.KernelIdeal.KGlue.Am m ρ c
      = dense (srcOf (m ((c.tc : Thread Cert.KernelIdeal.nD Cert.KernelIdeal.τ).loc Cert.KernelIdeal.main_arg1))) (dstOf (m ((c.tc : Thread Cert.KernelIdeal.nD Cert.KernelIdeal.τ).loc Cert.KernelIdeal.main_arg1))) (fun e => wR (m ((c.tc : Thread Cert.KernelIdeal.nD Cert.KernelIdeal.τ).loc Cert.KernelIdeal.main_arg1)) (ix1 e))
          (fun n => disR (m ((c.tc : Thread Cert.KernelIdeal.nD Cert.KernelIdeal.τ).loc Cert.KernelIdeal.main_arg1)) (ix1 n) * disR (m ((c.tc : Thread Cert.KernelIdeal.nD Cert.KernelIdeal.τ).loc Cert.KernelIdeal.main_arg1)) (ix1 n)) := by
    funext i j'
    exact congrFun (Cert.KernelIdeal.KHostA.adj m ρ c hr) (ix2 i j')
  rw [hA]
  refine congrArg (fun f => poolR f (m ((c.tc : Thread Cert.KernelIdeal.nD Cert.KernelIdeal.τ).loc Cert.KernelIdeal.main_arg2))) (funext fun j => ?_)
  exact netDense_eq_netEdges _ _ (fun e => wR_isReal _ _) (fun n => IsReal.mul (disR_isReal _ _) (disR_isReal _ _))
    (fun i k => hx _) (fun i k => hW0 _) (fun i k => hW1 _) (fun i k => hW2 _) (fun k => hb0 _) (fun k => hb1 _)
    (fun i k => Cert.KernelIdeal.KGlue.X0_pad m ρ c i k) (j 0) (j 1)

/-- The reference's result is the mean pool of the edge form, the table's entries being node numbers. -/
theorem reference_result (m' : (ℓ : Loc Cert.ReferenceIdeal.nD Cert.ReferenceIdeal.τ Cert.ReferenceIdeal.sig) → Buf (Elt Ideal) ℓ) (c : Dev Cert.ReferenceIdeal.nD)
    (hr : InRange (m' ((c.tc : Thread Cert.ReferenceIdeal.nD Cert.ReferenceIdeal.τ).loc Cert.ReferenceIdeal.main_arg1))) :
    Cert.ReferenceIdeal.Value.res_main_v149 m' c
      = poolR (featR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg2)) :=
  (Cert.ReferenceIdeal.Read.val_main_v149_eq m' c).trans (ref_value _ _ _ _ _ _ _ _ _ hr)

/-- From memories agreeing on the arguments both programs end with the same result. -/
theorem algebraic : Cert.algebraic_KernelIdeal_ReferenceIdeal := by
  intro m ρ m' ρ' hpre hagree
  refine ⟨fun c => poolR (featR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)), ?_, ?_⟩
  · exact (θ_run Cert.KernelIdeal.defs _ _).mono (fun r h c => ⟨(h c).1.trans (kernel_result m ρ hpre c), (h c).2⟩)
      (Cert.KernelIdeal.KRun.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    have hr : InRange (m' ((c.tc : Thread Cert.ReferenceIdeal.nD Cert.ReferenceIdeal.τ).loc Cert.ReferenceIdeal.main_arg1)) := by
      rw [a1]; exact (Cert.Decode.of_pre _ _ _ _ _ _ _ _ _ (hpre c)).2.1
    rw [reference_result m' c hr, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
